-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S65536x256 : Shape := ⟨2, ![65536, 256]⟩
abbrev S65536 : Shape := ⟨1, ![65536]⟩
abbrev S512 : Shape := ⟨1, ![512]⟩
abbrev S256 : Shape := ⟨1, ![256]⟩
abbrev S4x512x256 : Shape := ⟨3, ![4, 512, 256]⟩
abbrev S4x256x256 : Shape := ⟨3, ![4, 256, 256]⟩
abbrev S4x256x1 : Shape := ⟨3, ![4, 256, 1]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S65536x256 : S_.BroadcastsInDim S65536x256 (![] : Fin 0 → Fin S65536x256.rank)
  reducesTo_S65536x256_S_d0_1 : S65536x256.ReducesTo [0, 1] S_
  bcast_S_S512 : S_.BroadcastsInDim S512 (![] : Fin 0 → Fin S512.rank)
  reducesTo_S512_S_d0 : S512.ReducesTo [0] S_
  bcast_S_S256 : S_.BroadcastsInDim S256 (![] : Fin 0 → Fin S256.rank)
  reducesTo_S256_S_d0 : S256.ReducesTo [0] S_
  bcast_S_S4x512x256 : S_.BroadcastsInDim S4x512x256 (![] : Fin 0 → Fin S4x512x256.rank)
  reducesTo_S4x512x256_S_d0_1_2 : S4x512x256.ReducesTo [0, 1, 2] S_
  bcast_S_S4x256x256 : S_.BroadcastsInDim S4x256x256 (![] : Fin 0 → Fin S4x256x256.rank)
  reducesTo_S4x256x256_S_d0_1_2 : S4x256x256.ReducesTo [0, 1, 2] S_
  bcast_S_S4x256x1 : S_.BroadcastsInDim S4x256x1 (![] : Fin 0 → Fin S4x256x1.rank)
  reducesTo_S4x256x1_S_d0_1_2 : S4x256x1.ReducesTo [0, 1, 2] S_

variable [Facts]

def fn_part3 {F : FTy → Type} [FloatOps F] (main_arg12 : FVec F S4x256x1 .f32) (main_v48 : IVec S_ 1) (main_v49 : FVec F S4x256x256 .f32) (main_v50 : FVec F S4x256x256 .f32) : IVec S_ 1 :=
  let main_v51 : IVec S4x256x256 1 := cmpf .olt main_v49 main_v50
  let main_c_19 : IVec S_ 1 := constantI S_ 1 1#1
  let main_v52 : IVec S_ 1 := (fun x v => Host.reduce IntOp.andi x v reducesTo_S4x256x256_S_d0_1_2 h_S_) main_v51 main_c_19
  let main_v53 : IVec S_ 1 := andi main_v48 main_v52
  let main_v54 : FVec F S4x256x1 .f32 := Host.absf main_arg12
  let main_cst_20 : FVec F S_ .f32 := constant S_ .f32 0x7F800000#32
  let main_v55 : FVec F S4x256x1 .f32 := broadcastInDim S4x256x1 ![] bcast_S_S4x256x1 main_cst_20
  let main_v56 : IVec S4x256x1 1 := cmpf .olt main_v54 main_v55
  let main_c_21 : IVec S_ 1 := constantI S_ 1 1#1
  let main_v57 : IVec S_ 1 := (fun x v => Host.reduce IntOp.andi x v reducesTo_S4x256x1_S_d0_1_2 h_S_) main_v56 main_c_21
  let main_v58 : IVec S_ 1 := andi main_v53 main_v57
  main_v58

def fn_part2 {F : FTy → Type} [FloatOps F] (main_arg8 : FVec F S4x256x256 .f32) (main_arg9 : FVec F S4x256x1 .f32) (main_arg10 : FVec F S4x256x256 .f32) (main_arg11 : FVec F S4x256x256 .f32) (main_arg12 : FVec F S4x256x1 .f32) (main_v33 : IVec S_ 1) : IVec S_ 1 :=
  let main_v34 : FVec F S4x256x256 .f32 := Host.absf main_arg8
  let main_cst_12 : FVec F S_ .f32 := constant S_ .f32 0x7F800000#32
  let main_v35 : FVec F S4x256x256 .f32 := broadcastInDim S4x256x256 ![] bcast_S_S4x256x256 main_cst_12
  let main_v36 : IVec S4x256x256 1 := cmpf .olt main_v34 main_v35
  let main_c_13 : IVec S_ 1 := constantI S_ 1 1#1
  let main_v37 : IVec S_ 1 := (fun x v => Host.reduce IntOp.andi x v reducesTo_S4x256x256_S_d0_1_2 h_S_) main_v36 main_c_13
  let main_v38 : IVec S_ 1 := andi main_v33 main_v37
  let main_v39 : FVec F S4x256x1 .f32 := Host.absf main_arg9
  let main_cst_14 : FVec F S_ .f32 := constant S_ .f32 0x7F800000#32
  let main_v40 : FVec F S4x256x1 .f32 := broadcastInDim S4x256x1 ![] bcast_S_S4x256x1 main_cst_14
  let main_v41 : IVec S4x256x1 1 := cmpf .olt main_v39 main_v40
  let main_c_15 : IVec S_ 1 := constantI S_ 1 1#1
  let main_v42 : IVec S_ 1 := (fun x v => Host.reduce IntOp.andi x v reducesTo_S4x256x1_S_d0_1_2 h_S_) main_v41 main_c_15
  let main_v43 : IVec S_ 1 := andi main_v38 main_v42
  let main_v44 : FVec F S4x256x256 .f32 := Host.absf main_arg10
  let main_cst_16 : FVec F S_ .f32 := constant S_ .f32 0x7F800000#32
  let main_v45 : FVec F S4x256x256 .f32 := broadcastInDim S4x256x256 ![] bcast_S_S4x256x256 main_cst_16
  let main_v46 : IVec S4x256x256 1 := cmpf .olt main_v44 main_v45
  let main_c_17 : IVec S_ 1 := constantI S_ 1 1#1
  let main_v47 : IVec S_ 1 := (fun x v => Host.reduce IntOp.andi x v reducesTo_S4x256x256_S_d0_1_2 h_S_) main_v46 main_c_17
  let main_v48 : IVec S_ 1 := andi main_v43 main_v47
  let main_v49 : FVec F S4x256x256 .f32 := Host.absf main_arg11
  let main_cst_18 : FVec F S_ .f32 := constant S_ .f32 0x7F800000#32
  let main_v50 : FVec F S4x256x256 .f32 := broadcastInDim S4x256x256 ![] bcast_S_S4x256x256 main_cst_18
  fn_part3 (F := F) main_arg12 main_v48 main_v49 main_v50

def fn_part1 {F : FTy → Type} [FloatOps F] (main_arg5 : FVec F S256 .f32) (main_arg6 : FVec F S256 .f32) (main_arg7 : FVec F S4x512x256 .f32) (main_arg8 : FVec F S4x256x256 .f32) (main_arg9 : FVec F S4x256x1 .f32) (main_arg10 : FVec F S4x256x256 .f32) (main_arg11 : FVec F S4x256x256 .f32) (main_arg12 : FVec F S4x256x1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S4x512x256 .f32 := Host.absf main_arg7
  let main_cst_10 : FVec F S_ .f32 := constant S_ .f32 0x7F800000#32
  let main_v30 : FVec F S4x512x256 .f32 := broadcastInDim S4x512x256 ![] bcast_S_S4x512x256 main_cst_10
  let main_v31 : IVec S4x512x256 1 := cmpf .olt main_v29 main_v30
  let main_c_11 : IVec S_ 1 := constantI S_ 1 1#1
  let main_v32 : IVec S_ 1 := (fun x v => Host.reduce IntOp.andi x v reducesTo_S4x512x256_S_d0_1_2 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S65536x512 .f32) (main_arg1 : FVec F S65536x256 .f32) (main_arg2 : IVec S65536 32) (main_arg3 : FVec F S512 .f32) (main_arg4 : FVec F S512 .f32) (main_arg5 : FVec F S256 .f32) (main_arg6 : FVec F S256 .f32) (main_arg7 : FVec F S4x512x256 .f32) (main_arg8 : FVec F S4x256x256 .f32) (main_arg9 : FVec F S4x256x1 .f32) (main_arg10 : FVec F S4x256x256 .f32) (main_arg11 : FVec F S4x256x256 .f32) (main_arg12 : FVec F S4x256x1 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_arg8 main_arg9 main_arg10 main_arg11 main_arg12 main_v13 main_v16
-- ==== Kernel.lean ====
abbrev S65536x512 : Shape := ⟨2, ![65536, 512]⟩
abbrev S65536x256 : Shape := ⟨2, ![65536, 256]⟩
abbrev S65536 : Shape := ⟨1, ![65536]⟩
abbrev S512 : Shape := ⟨1, ![512]⟩
abbrev S256 : Shape := ⟨1, ![256]⟩
abbrev S4x512x256 : Shape := ⟨3, ![4, 512, 256]⟩
abbrev S4x256x256 : Shape := ⟨3, ![4, 256, 256]⟩
abbrev S4x256x1 : Shape := ⟨3, ![4, 256, 1]⟩
abbrev S1x512 : Shape := ⟨2, ![1, 512]⟩
abbrev S1x256 : Shape := ⟨2, ![1, 256]⟩
abbrev S65536x1 : Shape := ⟨2, ![65536, 1]⟩
abbrev S4096x512 : Shape := ⟨2, ![4096, 512]⟩
abbrev S1x512x256 : Shape := ⟨3, ![1, 512, 256]⟩
abbrev S1x256x256 : Shape := ⟨3, ![1, 256, 256]⟩
abbrev S1x256x1 : Shape := ⟨3, ![1, 256, 1]⟩
abbrev S4096x1 : Shape := ⟨2, ![4096, 1]⟩
abbrev S4096 : Shape := ⟨1, ![4096]⟩
abbrev S512x256 : Shape := ⟨2, ![512, 256]⟩
abbrev S4096x256 : Shape := ⟨2, ![4096, 256]⟩
abbrev S256x256 : Shape := ⟨2, ![256, 256]⟩
abbrev S256x1 : Shape := ⟨2, ![256, 1]⟩
abbrev S_ : Shape := ⟨0, ![]⟩
abbrev S512x1 : Shape := ⟨2, ![512, 1]⟩

abbrev nBuf : Space → Nat
  | .hbm => 26
  | .vmem => 24
  | .smem => 0
  | _ => 0

abbrev bufTy : (tb : Table) → Fin (tcTables nBuf tb) → BufTy
  | .hbm, ⟨0, _⟩ => ⟨S65536x512, .f32⟩
  | .hbm, ⟨1, _⟩ => ⟨S65536x256, .f32⟩
  | .hbm, ⟨2, _⟩ => ⟨S65536, .i32⟩
  | .hbm, ⟨3, _⟩ => ⟨S512, .f32⟩
  | .hbm, ⟨4, _⟩ => ⟨S512, .f32⟩
  | .hbm, ⟨5, _⟩ => ⟨S256, .f32⟩
  | .hbm, ⟨6, _⟩ => ⟨S256, .f32⟩
  | .hbm, ⟨7, _⟩ => ⟨S4x512x256, .f32⟩
  | .hbm, ⟨8, _⟩ => ⟨S4x256x256, .f32⟩
  | .hbm, ⟨9, _⟩ => ⟨S4x256x1, .f32⟩
  | .hbm, ⟨10, _⟩ => ⟨S4x256x256, .f32⟩
  | .hbm, ⟨11, _⟩ => ⟨S4x256x256, .f32⟩
  | .hbm, ⟨12, _⟩ => ⟨S4x256x1, .f32⟩
  | .hbm, ⟨13, _⟩ => ⟨S1x512, .f32⟩
  | .hbm, ⟨14, _⟩ => ⟨S1x512, .f32⟩
  | .hbm, ⟨15, _⟩ => ⟨S1x256, .f32⟩
  | .hbm, ⟨16, _⟩ => ⟨S1x256, .f32⟩
  | .hbm, ⟨17, _⟩ => ⟨S65536x1, .f32⟩
  | .hbm, ⟨18, _⟩ => ⟨S65536x1, .f32⟩
  | .hbm, ⟨19, _⟩ => ⟨S65536x1, .f32⟩
  | .hbm, ⟨20, _⟩ => ⟨S65536, .f32⟩
  | .hbm, ⟨21, _⟩ => ⟨S_, .f32⟩
  | .hbm, ⟨22, _⟩ => ⟨S512, .f32⟩
  | .hbm, ⟨23, _⟩ => ⟨S65536x1, .i32⟩
  | .hbm, ⟨24, _⟩ => ⟨S512, .f32⟩
  | .hbm, ⟨25, _⟩ => ⟨S512x1, .f32⟩
  | .local _ .vmem, ⟨0, _⟩ => ⟨S4096x512, .f32⟩
  | .local _ .vmem, ⟨1, _⟩ => ⟨S4096x512, .f32⟩
  | .local _ .vmem, ⟨2, _⟩ => ⟨S1x512, .f32⟩
  | .local _ .vmem, ⟨3, _⟩ => ⟨S1x512, .f32⟩
  | .local _ .vmem, ⟨4, _⟩ => ⟨S1x512x256, .f32⟩
  | .local _ .vmem, ⟨5, _⟩ => ⟨S1x512x256, .f32⟩
  | .local _ .vmem, ⟨6, _⟩ => ⟨S1x256x256, .f32⟩
  | .local _ .vmem, ⟨7, _⟩ => ⟨S1x256x256, .f32⟩
  | .local _ .vmem, ⟨8, _⟩ => ⟨S1x256x1, .f32⟩
  | .local _ .vmem, ⟨9, _⟩ => ⟨S1x256x1, .f32⟩
  | .local _ .vmem, ⟨10, _⟩ => ⟨S4096x1, .f32⟩
  | .local _ .vmem, ⟨11, _⟩ => ⟨S4096x1, .f32⟩
  | .local _ .vmem, ⟨12, _⟩ => ⟨S4096x256, .f32⟩
  | .local _ .vmem, ⟨13, _⟩ => ⟨S4096x256, .f32⟩
  | .local _ .vmem, ⟨14, _⟩ => ⟨S1x256, .f32⟩
  | .local _ .vmem, ⟨15, _⟩ => ⟨S1x256, .f32⟩
  | .local _ .vmem, ⟨16, _⟩ => ⟨S1x256x256, .f32⟩
  | .local _ .vmem, ⟨17, _⟩ => ⟨S1x256x256, .f32⟩
  | .local _ .vmem, ⟨18, _⟩ => ⟨S1x256x256, .f32⟩
  | .local _ .vmem, ⟨19, _⟩ => ⟨S1x256x256, .f32⟩
  | .local _ .vmem, ⟨20, _⟩ => ⟨S1x256x1, .f32⟩
  | .local _ .vmem, ⟨21, _⟩ => ⟨S1x256x1, .f32⟩
  | .local _ .vmem, ⟨22, _⟩ => ⟨S4096x1, .f32⟩
  | .local _ .vmem, ⟨23, _⟩ => ⟨S4096x1, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x256x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x256x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S4096x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  shapeCasts_S512_S1x512 : S512.ShapeCasts S1x512
  shapeCasts_S256_S1x256 : S256.ShapeCasts S1x256
  inb_S4096x512_S4096x512_0_0 : ∀ a, (![0, 0] : Fin 2 → Nat) a + S4096x512.size a ≤ S4096x512.size a
  h_S4096x512 : 0 < S4096x512.numel
  reduces_S4096x512_S4096 : S4096x512.Reduces [1] S4096
  shapeCasts_S4096_S4096x1 : S4096.ShapeCasts S4096x1
  broadcasts_S4096x1_S4096x512 : S4096x1.Broadcasts S4096x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4096x512 : S1x512.Broadcasts S4096x512
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  bitsLt_bf16_f32 : FTy.bits .bf16 < FTy.bits .f32
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  inb_S4096x1_S4096x1_0_0 : ∀ a, (![0, 0] : Fin 2 → Nat) a + S4096x1.size a ≤ S4096x1.size a
  h_S4096x1 : 0 < S4096x1.numel
  inb_S4096x256_S4096x256_0_0 : ∀ a, (![0, 0] : Fin 2 → Nat) a + S4096x256.size a ≤ S4096x256.size a
  h_S4096x256 : 0 < S4096x256.numel
  reduces_S4096x256_S4096 : S4096x256.Reduces [1] S4096
  broadcasts_S4096x1_S4096x256 : S4096x1.Broadcasts S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  shapeCasts_S65536x1_S65536 : S65536x1.ShapeCasts S65536
  bcast_S_S512 : S_.BroadcastsInDim S512 (![] : Fin 0 → Fin S512.rank)
  bcast_S65536_S65536x1_0 : S65536.BroadcastsInDim S65536x1 (![0] : Fin 1 → Fin S65536x1.rank)
  shapeCasts_S512_S512x1 : S512.ShapeCasts S512x1
  dot_S4096x512_S512x256_S4096x256_1_0_0_1_n_n_wf : DotDims.WF S4096x512 S512x256 S4096x256 [1] [0] [0] [1] [] []
  dot_S4096x256_S256x256_S4096x256_1_0_0_1_n_n_wf : DotDims.WF S4096x256 S256x256 S4096x256 [1] [0] [0] [1] [] []
  dot_S4096x256_S256x1_S4096x1_1_0_0_1_n_n_wf : DotDims.WF S4096x256 S256x1 S4096x1 [1] [0] [0] [1] [] []
  scatter_S512_S65536x1_S65536_n_0_0_1_wf : ScatterDims.WF S512 S65536x1 S65536 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S65536x512.size a
  hwx0_0 : ∀ i : grid0.Coords, EltTy.bits .f32 = 32 ∨ (Rect.block (s := S65536x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x256.size a ≤ S4x512x256.size a
  hwx0_3 : ∀ i : grid0.Coords, EltTy.bits .f32 = 32 ∨ (Rect.block (s := S4x512x256) S1x512x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x256.size a ≤ S4x256x256.size a
  hwx0_4 : ∀ i : grid0.Coords, EltTy.bits .f32 = 32 ∨ (Rect.block (s := S4x256x256) S1x256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x1.size a ≤ S4x256x1.size a
  hwx0_5 : ∀ i : grid0.Coords, EltTy.bits .f32 = 32 ∨ (Rect.block (s := S4x256x1) S1x256x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x1.size a ≤ S65536x1.size a
  hwx0_6 : ∀ i : grid0.Coords, EltTy.bits .f32 = 32 ∨ (Rect.block (s := S65536x1) S4096x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S65536x256.size a
  hwx1_0 : ∀ i : grid1.Coords, EltTy.bits .f32 = 32 ∨ (Rect.block (s := S65536x256) S4096x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x256.size a ≤ S4x256x256.size a
  hwx1_3 : ∀ i : grid1.Coords, EltTy.bits .f32 = 32 ∨ (Rect.block (s := S4x256x256) S1x256x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x256.size a ≤ S4x256x256.size a
  hwx1_4 : ∀ i : grid1.Coords, EltTy.bits .f32 = 32 ∨ (Rect.block (s := S4x256x256) S1x256x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x1.size a ≤ S4x256x1.size a
  hwx1_5 : ∀ i : grid1.Coords, EltTy.bits .f32 = 32 ∨ (Rect.block (s := S4x256x1) S1x256x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4096x1.size a ≤ S65536x1.size a
  hwx1_6 : ∀ i : grid1.Coords, EltTy.bits .f32 = 32 ∨ (Rect.block (s := S65536x1) S4096x1.size (cc1_transform_6 i) (hinb1_6 i)).WholeWords (EltTy.packing .f32)

variable [Facts₀]

def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf
def scatter_S512_S65536x1_S65536_n_0_0_1 : ScatterDims S512 S65536x1 S65536 where
  updateWindowDims := []
  insertedWindowDims := [0]
  scatterDimsToOperandDims := [0]
  indexVectorDim := 1
  wf := scatter_S512_S65536x1_S65536_n_0_0_1_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S1x512x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S1x256x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S1x256x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4) S4096x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S1x256x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S1x256x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S1x256x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v5) S4096x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S65536x512 : Shape := ⟨2, ![65536, 512]⟩
abbrev S65536x256 : Shape := ⟨2, ![65536, 256]⟩
abbrev S65536 : Shape := ⟨1, ![65536]⟩
abbrev S512 : Shape := ⟨1, ![512]⟩
abbrev S256 : Shape := ⟨1, ![256]⟩
abbrev S4x512x256 : Shape := ⟨3, ![4, 512, 256]⟩
abbrev S4x256x256 : Shape := ⟨3, ![4, 256, 256]⟩
abbrev S4x256x1 : Shape := ⟨3, ![4, 256, 1]⟩
abbrev S_ : Shape := ⟨0, ![]⟩
abbrev S65536x1 : Shape := ⟨2, ![65536, 1]⟩
abbrev S1x512 : Shape := ⟨2, ![1, 512]⟩
abbrev S1x256 : Shape := ⟨2, ![1, 256]⟩
abbrev S4x16384x512 : Shape := ⟨3, ![4, 16384, 512]⟩
abbrev S4x16384x256 : Shape := ⟨3, ![4, 16384, 256]⟩
abbrev S4x16384x1 : Shape := ⟨3, ![4, 16384, 1]⟩
abbrev S512x1 : Shape := ⟨2, ![512, 1]⟩

abbrev nBuf : Space → Nat
  | .hbm => 132
  | .vmem => 0
  | .smem => 0
  | _ => 0

abbrev hbmTy0_0 (i : Nat) : BufTy := match i % 128 with
  | 0 => ⟨S65536x512, .f32⟩
  | 1 => ⟨S65536x256, .f32⟩
  | 2 => ⟨S65536, .i32⟩
  | 3 => ⟨S512, .f32⟩
  | 4 => ⟨S512, .f32⟩
  | 5 => ⟨S256, .f32⟩
  | 6 => ⟨S256, .f32⟩
  | 7 => ⟨S4x512x256, .f32⟩
  | 8 => ⟨S4x256x256, .f32⟩
  | 9 => ⟨S4x256x1, .f32⟩
  | 10 => ⟨S4x256x256, .f32⟩
  | 11 => ⟨S4x256x256, .f32⟩
  | 12 => ⟨S4x256x1, .f32⟩
  | 13 => ⟨S_, .f32⟩
  | 14 => ⟨S65536, .f32⟩
  | 15 => ⟨S65536x1, .f32⟩
  | 16 => ⟨S_, .f32⟩
  | 17 => ⟨S65536x1, .f32⟩
  | 18 => ⟨S65536x1, .f32⟩
  | 19 => ⟨S65536x512, .f32⟩
  | 20 => ⟨S65536x512, .f32⟩
  | 21 => ⟨S65536x512, .f32⟩
  | 22 => ⟨S_, .f32⟩
  | 23 => ⟨S65536, .f32⟩
  | 24 => ⟨S65536x1, .f32⟩
  | 25 => ⟨S_, .f32⟩
  | 26 => ⟨S65536x1, .f32⟩
  | 27 => ⟨S65536x1, .f32⟩
  | 28 => ⟨S65536x512, .f32⟩
  | 29 => ⟨S65536x512, .f32⟩
  | 30 => ⟨S_, .f32⟩
  | 31 => ⟨S65536x1, .f32⟩
  | 32 => ⟨S65536x1, .f32⟩
  | 33 => ⟨S65536x1, .f32⟩
  | 34 => ⟨S65536x512, .f32⟩
  | 35 => ⟨S65536x512, .f32⟩
  | 36 => ⟨S1x512, .f32⟩
  | 37 => ⟨S65536x512, .f32⟩
  | 38 => ⟨S65536x512, .f32⟩
  | 39 => ⟨S1x512, .f32⟩
  | 40 => ⟨S65536x512, .f32⟩
  | 41 => ⟨S65536x512, .f32⟩
  | 42 => ⟨S_, .f32⟩
  | 43 => ⟨S65536, .f32⟩
  | 44 => ⟨S65536x1, .f32⟩
  | 45 => ⟨S_, .f32⟩
  | 46 => ⟨S65536x1, .f32⟩
  | 47 => ⟨S65536x1, .f32⟩
  | 48 => ⟨S65536x256, .f32⟩
  | 49 => ⟨S65536x256, .f32⟩
  | 50 => ⟨S65536x256, .f32⟩
  | 51 => ⟨S_, .f32⟩
  | 52 => ⟨S65536, .f32⟩
  | 53 => ⟨S65536x1, .f32⟩
  | 54 => ⟨S_, .f32⟩
  | 55 => ⟨S65536x1, .f32⟩
  | 56 => ⟨S65536x1, .f32⟩
  | 57 => ⟨S65536x256, .f32⟩
  | 58 => ⟨S65536x256, .f32⟩
  | 59 => ⟨S_, .f32⟩
  | 60 => ⟨S65536x1, .f32⟩
  | 61 => ⟨S65536x1, .f32⟩
  | 62 => ⟨S65536x1, .f32⟩
  | 63 => ⟨S65536x256, .f32⟩
  | 64 => ⟨S65536x256, .f32⟩
  | 65 => ⟨S1x256, .f32⟩
  | 66 => ⟨S65536x256, .f32⟩
  | 67 => ⟨S65536x256, .f32⟩
  | 68 => ⟨S1x256, .f32⟩
  | 69 => ⟨S65536x256, .f32⟩
  | 70 => ⟨S65536x256, .f32⟩
  | 71 => ⟨S4x16384x512, .f32⟩
  | 72 => ⟨S4x16384x256, .f32⟩
  | 73 => ⟨S4x16384x256, .f32⟩
  | 74 => ⟨S4x16384x256, .f32⟩
  | 75 => ⟨S_, .f32⟩
  | 76 => ⟨S4x16384x256, .f32⟩
  | 77 => ⟨S4x16384x256, .f32⟩
  | 78 => ⟨S_, .f32⟩
  | 79 => ⟨S4x16384x256, .f32⟩
  | 80 => ⟨S4x16384x256, .f32⟩
  | 81 => ⟨S4x16384x256, .f32⟩
  | 82 => ⟨S4x16384x256, .f32⟩
  | 83 => ⟨S4x16384x256, .f32⟩
  | 84 => ⟨S4x16384x256, .f32⟩
  | 85 => ⟨S_, .f32⟩
  | 86 => ⟨S4x16384x256, .f32⟩
  | 87 => ⟨S4x16384x256, .f32⟩
  | 88 => ⟨S_, .f32⟩
  | 89 => ⟨S4x16384x256, .f32⟩
  | 90 => ⟨S4x16384x256, .f32⟩
  | 91 => ⟨S4x16384x256, .f32⟩
  | 92 => ⟨S4x16384x1, .f32⟩
  | 93 => ⟨S65536x1, .f32⟩
  | 94 => ⟨S4x16384x256, .f32⟩
  | 95 => ⟨S4x16384x256, .f32⟩
  | 96 => ⟨S4x16384x256, .f32⟩
  | 97 => ⟨S4x16384x256, .f32⟩
  | 98 => ⟨S_, .f32⟩
  | 99 => ⟨S4x16384x256, .f32⟩
  | 100 => ⟨S4x16384x256, .f32⟩
  | 101 => ⟨S_, .f32⟩
  | 102 => ⟨S4x16384x256, .f32⟩
  | 103 => ⟨S4x16384x256, .f32⟩
  | 104 => ⟨S4x16384x256, .f32⟩
  | 105 => ⟨S4x16384x256, .f32⟩
  | 106 => ⟨S4x16384x256, .f32⟩
  | 107 => ⟨S4x16384x256, .f32⟩
  | 108 => ⟨S_, .f32⟩
  | 109 => ⟨S4x16384x256, .f32⟩
  | 110 => ⟨S4x16384x256, .f32⟩
  | 111 => ⟨S_, .f32⟩
  | 112 => ⟨S4x16384x256, .f32⟩
  | 113 => ⟨S4x16384x256, .f32⟩
  | 114 => ⟨S4x16384x256, .f32⟩
  | 115 => ⟨S4x16384x1, .f32⟩
  | 116 => ⟨S65536x1, .f32⟩
  | 117 => ⟨S_, .f32⟩
  | 118 => ⟨S512x1, .f32⟩
  | 119 => ⟨S65536x1, .i32⟩
  | 120 => ⟨S512x1, .f32⟩
  | 121 => ⟨S_, .f32⟩
  | 122 => ⟨S512x1, .f32⟩
  | 123 => ⟨S512x1, .f32⟩
  | 124 => ⟨S_, .f32⟩
  | 125 => ⟨S512x1, .f32⟩
  | 126 => ⟨S65536x1, .i32⟩
  | 127 => ⟨S512x1, .f32⟩
  | _ => ⟨S65536x512, .f32⟩

abbrev hbmTy0_1 (i : Nat) : BufTy := match i % 128 with
  | 0 => ⟨S_, .f32⟩
  | 1 => ⟨S512x1, .f32⟩
  | 2 => ⟨S512x1, .f32⟩
  | 3 => ⟨S512x1, .f32⟩
  | _ => ⟨S65536x512, .f32⟩

abbrev hbmTy (i : Nat) : BufTy := match i / 128 with
  | 0 => hbmTy0_0 i
  | 1 => hbmTy0_1 i
  | _ => ⟨S65536x512, .f32⟩

abbrev bufTy : (tb : Table) → Fin (tcTables nBuf tb) → BufTy
  | .hbm, ⟨i, _⟩ => hbmTy i
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_8 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_call0_v0 : Ref sig .tc := ⟨.hbm, 73, rfl⟩
abbrev main_call0_v1 : Ref sig .tc := ⟨.hbm, 74, rfl⟩
abbrev main_call0_cst : Ref sig .tc := ⟨.hbm, 75, rfl⟩
abbrev main_call0_v2 : Ref sig .tc := ⟨.hbm, 76, rfl⟩
abbrev main_call0_v3 : Ref sig .tc := ⟨.hbm, 77, rfl⟩
abbrev main_call0_cst_0 : Ref sig .tc := ⟨.hbm, 78, rfl⟩
abbrev main_call0_v4 : Ref sig .tc := ⟨.hbm, 79, rfl⟩
abbrev main_call0_v5 : Ref sig .tc := ⟨.hbm, 80, rfl⟩
abbrev main_v50 : Ref sig .tc := ⟨.hbm, 81, rfl⟩
abbrev main_v51 : Ref sig .tc := ⟨.hbm, 82, rfl⟩
abbrev main_call1_v0 : Ref sig .tc := ⟨.hbm, 83, rfl⟩
abbrev main_call1_v1 : Ref sig .tc := ⟨.hbm, 84, rfl⟩
abbrev main_call1_cst : Ref sig .tc := ⟨.hbm, 85, rfl⟩
abbrev main_call1_v2 : Ref sig .tc := ⟨.hbm, 86, rfl⟩
abbrev main_call1_v3 : Ref sig .tc := ⟨.hbm, 87, rfl⟩
abbrev main_call1_cst_0 : Ref sig .tc := ⟨.hbm, 88, rfl⟩
abbrev main_call1_v4 : Ref sig .tc := ⟨.hbm, 89, rfl⟩
abbrev main_call1_v5 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_call2_v0 : Ref sig .tc := ⟨.hbm, 96, rfl⟩
abbrev main_call2_v1 : Ref sig .tc := ⟨.hbm, 97, rfl⟩
abbrev main_call2_cst : Ref sig .tc := ⟨.hbm, 98, rfl⟩
abbrev main_call2_v2 : Ref sig .tc := ⟨.hbm, 99, rfl⟩
abbrev main_call2_v3 : Ref sig .tc := ⟨.hbm, 100, rfl⟩
abbrev main_call2_cst_0 : Ref sig .tc := ⟨.hbm, 101, rfl⟩
abbrev main_call2_v4 : Ref sig .tc := ⟨.hbm, 102, rfl⟩
abbrev main_call2_v5 : Ref sig .tc := ⟨.hbm, 103, rfl⟩
abbrev main_v57 : Ref sig .tc := ⟨.hbm, 104, rfl⟩
abbrev main_v58 : Ref sig .tc := ⟨.hbm, 105, rfl⟩
abbrev main_call3_v0 : Ref sig .tc := ⟨.hbm, 106, rfl⟩
abbrev main_call3_v1 : Ref sig .tc := ⟨.hbm, 107, rfl⟩
abbrev main_call3_cst : Ref sig .tc := ⟨.hbm, 108, rfl⟩
abbrev main_call3_v2 : Ref sig .tc := ⟨.hbm, 109, rfl⟩
abbrev main_call3_v3 : Ref sig .tc := ⟨.hbm, 110, rfl⟩
abbrev main_call3_cst_0 : Ref sig .tc := ⟨.hbm, 111, rfl⟩
abbrev main_call3_v4 : Ref sig .tc := ⟨.hbm, 112, rfl⟩
abbrev main_call3_v5 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_cst_9 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_cst_10 : Ref sig .tc := ⟨.hbm, 121, rfl⟩
abbrev main_v65 : Ref sig .tc := ⟨.hbm, 122, rfl⟩
abbrev main_v66 : Ref sig .tc := ⟨.hbm, 123, rfl⟩
abbrev main_cst_11 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_cst_12 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩

abbrev nD : Nat := 1
abbrev τ : Topo := Topo.v7x

variable {F : FTy → Type} [FloatOps F]

class Facts₀ : Prop where
  reducesTo_S65536x512_S65536_d1 : S65536x512.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x512_0_1 : S65536x1.BroadcastsInDim S65536x512 (![0, 1] : Fin 2 → Fin S65536x512.rank)
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  reducesTo_S65536x256_S65536_d1 : S65536x256.ReducesTo [1] S65536
  bcast_S65536x1_S65536x256_0_1 : S65536x1.BroadcastsInDim S65536x256 (![0, 1] : Fin 2 → Fin S65536x256.rank)
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  shapeCasts_S65536x512_S4x16384x512 : S65536x512.ShapeCasts S4x16384x512
  bcast_S_S4x16384x256 : S_.BroadcastsInDim S4x16384x256 (![] : Fin 0 → Fin S4x16384x256.rank)
  shapeCasts_S4x16384x1_S65536x1 : S4x16384x1.ShapeCasts S65536x1
  shapeCasts_S65536x256_S4x16384x256 : S65536x256.ShapeCasts S4x16384x256
  bcast_S_S512x1 : S_.BroadcastsInDim S512x1 (![] : Fin 0 → Fin S512x1.rank)
  dot_S4x16384x512_S4x512x256_S4x16384x256_2_1_1_2_0_0_wf : DotDims.WF S4x16384x512 S4x512x256 S4x16384x256 [2] [1] [1] [2] [0] [0]
  dot_S4x16384x256_S4x256x256_S4x16384x256_2_1_1_2_0_0_wf : DotDims.WF S4x16384x256 S4x256x256 S4x16384x256 [2] [1] [1] [2] [0] [0]
  dot_S4x16384x256_S4x256x1_S4x16384x1_2_1_1_2_0_0_wf : DotDims.WF S4x16384x256 S4x256x1 S4x16384x1 [2] [1] [1] [2] [0] [0]
  scatter_S512x1_S65536x1_S65536x1_1_0_0_1_wf : ScatterDims.WF S512x1 S65536x1 S65536x1 [1] [0] [0] 1

variable [Facts₀]

def dot_S4x16384x512_S4x512x256_S4x16384x256_2_1_1_2_0_0 : DotDims S4x16384x512 S4x512x256 S4x16384x256 where
  lhsContracting := [2]
  rhsContracting := [1]
  lhsNonContracting := [1]
  rhsNonContracting := [2]
  lhsBatch := [0]
  rhsBatch := [0]
  wf := dot_S4x16384x512_S4x512x256_S4x16384x256_2_1_1_2_0_0_wf
def dot_S4x16384x256_S4x256x256_S4x16384x256_2_1_1_2_0_0 : DotDims S4x16384x256 S4x256x256 S4x16384x256 where
  lhsContracting := [2]
  rhsContracting := [1]
  lhsNonContracting := [1]
  rhsNonContracting := [2]
  lhsBatch := [0]
  rhsBatch := [0]
  wf := dot_S4x16384x256_S4x256x256_S4x16384x256_2_1_1_2_0_0_wf
def dot_S4x16384x256_S4x256x1_S4x16384x1_2_1_1_2_0_0 : DotDims S4x16384x256 S4x256x1 S4x16384x1 where
  lhsContracting := [2]
  rhsContracting := [1]
  lhsNonContracting := [1]
  rhsNonContracting := [2]
  lhsBatch := [0]
  rhsBatch := [0]
  wf := dot_S4x16384x256_S4x256x1_S4x16384x1_2_1_1_2_0_0_wf
def scatter_S512x1_S65536x1_S65536x1_1_0_0_1 : ScatterDims S512x1 S65536x1 S65536x1 where
  updateWindowDims := [1]
  insertedWindowDims := [0]
  scatterDimsToOperandDims := [0]
  indexVectorDim := 1
  wf := scatter_S512x1_S65536x1_S65536x1_1_0_0_1_wf

class Facts : Prop extends Facts₀ where

variable [Facts]
-- ==== Proof.Energy.lean ====
/-
  The per-atom energy that both programs compute, over the extended reals and abstract finite index sets.

  An atom carries a feature row x over an index set ι. The row is normalised: with μ the row's mean (its sum
  divided by the count n) and v the mean of the squared deviations, entry k becomes
  (x k - μ) · (v + ε)^(-1/2) · γ k + β k. Three weight matrices of one species then act on the normalised row,
  with the activation y ↦ y · logistic y after the first two: ι → κ, κ → κ and κ → one number, the atom's energy.

  The count n and the offset ε stay parameters: both programs carry them as the same two float words, which
  are never evaluated.
-/
import Idealize.ShloMosaic.PureOps.Ideal

noncomputable section

open scoped BigOperators

namespace Cert.Energy

open Idealize.ShloMosaic

variable {ι κ : Type} [Fintype ι] [Fintype κ]

/-- The activation y · logistic y. -/
def silu (y : EReal) : EReal := y * Ideal.logistic y

/-- The mean of a row: its sum divided by the count n. -/
def mean (n : EReal) (x : ι → EReal) : EReal := Ideal.div (∑ k, x k) n

/-- Entry k of the normalised row: the deviation from the mean, scaled by the inverse square root of the mean
    squared deviation plus ε, then by γ k, and shifted by β k. -/
def layerNorm (n ε : EReal) (x γ β : ι → EReal) (k : ι) : EReal :=
  (x k - mean n x) * Ideal.rsqrt (Ideal.div (∑ l, (x l - mean n x) * (x l - mean n x)) n + ε) * γ k + β k

/-- The atom's energy: the normalised row through the three weight matrices, the activation after the first two. -/
def energy (n ε : EReal) (x γ β : ι → EReal) (W1 : ι → κ → EReal) (W2 : κ → κ → EReal) (W3 : κ → EReal) : EReal :=
  ∑ h, silu (∑ j, silu (∑ k, layerNorm n ε x γ β k * W1 k j) * W2 j h) * W3 h

/-- The species of atom n: the 65536 atoms come as 4 contiguous runs of 16384, one run per species. -/
def species (n : Fin 65536) : Fin 4 := ⟨n.val / 16384, by have := n.isLt; omega⟩

/-- The logistic function spelt out as 1 / (1 + e^(-y)) is the logistic function, so the activation spelt out
    with it is the activation. -/
theorem silu_spelt (one : EReal) (h : one = 1) (y : EReal) :
    y * Ideal.div one (one + Ideal.exp (-y)) = silu y := by
  subst h; rfl

end Cert.Energy

end
-- ==== Proof.RefPs.lean ====
/-
  The reference's energy of atom n in the 512-feature branch, read off its host operations one at a time, is the
  per-atom energy of row n with the weights of atom n's species.

  The reference normalises every row of the [65536, 512] feature array: the row's sum divided by the count word is
  its mean; the sum of the squared deviations divided by the same word, plus the offset word, goes through the
  inverse square root; each deviation is scaled by that number and by γ, and shifted by β. It then views the 65536
  rows as 4 runs of 16384, one run per species, so that row m of run s is atom 16384·s + m, and contracts run s with
  the three weight matrices of species s, the activation y · (1 / (1 + e^(-y))) spelt out after the first two
  contractions. Viewed again as 65536 rows, entry n sits in run n / 16384, the atom's species, at place n % 16384.
-/
import proofs.«422344_j78073915506942_3_alg».proof.Proof.Gen.ReferenceIdeal.Read
import proofs.«422344_j78073915506942_3_alg».proof.Proof.Energy
import Idealize.ShloMosaic.Lib.ValueIdx
import Idealize.ShloMosaic.Lib.Pipeline.Value
import Idealize.ShloMosaic.PureOps.Ideal.Laws

noncomputable section

open scoped BigOperators

namespace Cert.RefEnergy

open Idealize.ShloMosaic Idealize.ShloMosaic.ValueIdx Cert.ReferenceIdeal Cert.ReferenceIdeal.Read

/-! ## The normalised row -/

/-- The column of row means: its entry for atom n is the sum of row n divided by the count word. The sum starts
    from the zero word, which is the number 0. -/
theorem mean_ps (x0 : (⟨S65536x512, .f32⟩ : BufTy).Contents (Elt Ideal)) (n : Fin 65536) :
    val_main_v3 (F := Ideal) x0 (ix2 n 0)
      = Energy.mean (Ideal.ofBits .f32 0x44000000#32) (fun k : Fin 512 => x0 (ix2 n k)) := by
  have e : ∀ k : Fin 512, idx_main_v0 (idx_main_v1 (ix2 n (0 : Fin 1))) k = ix2 n k := fun k =>
    funext fun a => Fin.ext (by match a with | ⟨0, _⟩ => rfl | ⟨1, _⟩ => rfl)
  rw [val_main_v3_apply, val_main_v1_apply, val_main_v0_apply, val_main_v2_apply, val_main_cst_0_apply, val_main_cst_apply]
  simp only [e, Ideal.hostDivf_def, Ideal.ofBits_def, Ideal.ofBits_zero_f32, zero_add]
  rfl

/-- The column that goes under the inverse square root: for atom n, the sum over the row of the squared deviations
    from the row's mean, divided by the count word, plus the offset word. Every entry of row n sees the same mean,
    the column's entry for n. -/
theorem spread_ps (x0 : (⟨S65536x512, .f32⟩ : BufTy).Contents (Elt Ideal)) (n : Fin 65536) :
    val_main_v14 (F := Ideal) x0 (ix2 n 0)
      = Ideal.div (∑ l : Fin 512, (x0 (ix2 n l) - Energy.mean (Ideal.ofBits .f32 0x44000000#32) (fun k : Fin 512 => x0 (ix2 n k)))
            * (x0 (ix2 n l) - Energy.mean (Ideal.ofBits .f32 0x44000000#32) (fun k : Fin 512 => x0 (ix2 n k))))
          (Ideal.ofBits .f32 0x44000000#32) + Ideal.ofBits .f32 0x3727C5AC#32 := by
  have e7 : ∀ l : Fin 512, idx_main_v7 (idx_main_v8 (ix2 n (0 : Fin 1))) l = ix2 n l := fun l =>
    funext fun a => Fin.ext (by match a with | ⟨0, _⟩ => rfl | ⟨1, _⟩ => rfl)
  have e4 : ∀ l : Fin 512, idx_main_v4 (ix2 n l) = ix2 n (0 : Fin 1) := fun l =>
    funext fun a => Fin.ext (by match a with | ⟨0, _⟩ => rfl | ⟨1, _⟩ => rfl)
  rw [val_main_v14_apply, val_main_v10_apply, val_main_v8_apply, val_main_v7_apply, val_main_v9_apply, val_main_cst_2_apply,
    val_main_v13_apply, val_main_cst_3_apply, val_main_cst_1_apply]
  simp only [e7, val_main_v6_apply, val_main_v5_apply, val_main_v4_apply, e4, mean_ps, Ideal.hostDivf_def, Ideal.ofBits_def,
    Ideal.ofBits_zero_f32, zero_add, Ideal.addf_def, Ideal.mulf_def, Ideal.subf_def]

/-- Entry k of the normalised row of atom n: the deviation of x n k from the row's mean, times the inverse square
    root of the row's spread, times γ k, plus β k. The mean and the spread are read from their columns at n, and
    γ and β, stretched along the atoms, are read at k. -/
theorem norm_ps (x0 : (⟨S65536x512, .f32⟩ : BufTy).Contents (Elt Ideal)) (x3 x4 : (⟨S512, .f32⟩ : BufTy).Contents (Elt Ideal))
    (n : Fin 65536) (k : Fin 512) :
    val_main_v23 (F := Ideal) x0 x3 x4 (ix2 n k)
      = Energy.layerNorm (Ideal.ofBits .f32 0x44000000#32) (Ideal.ofBits .f32 0x3727C5AC#32)
          (fun k : Fin 512 => x0 (ix2 n k)) (fun k => x3 (ix1 k)) (fun k => x4 (ix1 k)) k := by
  have e11 : idx_main_v11 (ix2 n k) = ix2 n (0 : Fin 1) :=
    funext fun a => Fin.ext (by match a with | ⟨0, _⟩ => rfl | ⟨1, _⟩ => rfl)
  have e16 : idx_main_v16 (ix2 n k) = ix2 n (0 : Fin 1) :=
    funext fun a => Fin.ext (by match a with | ⟨0, _⟩ => rfl | ⟨1, _⟩ => rfl)
  have e18 : idx_main_v18 (idx_main_v19 (ix2 n k)) = ix1 k :=
    funext fun a => Fin.ext (by match a with | ⟨0, _⟩ => rfl)
  have e21 : idx_main_v21 (idx_main_v22 (ix2 n k)) = ix1 k :=
    funext fun a => Fin.ext (by match a with | ⟨0, _⟩ => rfl)
  rw [val_main_v23_apply, val_main_v20_apply, val_main_v17_apply, val_main_v12_apply, val_main_v11_apply, val_main_v16_apply,
    val_main_v15_apply, val_main_v19_apply, val_main_v18_apply, val_main_v22_apply, val_main_v21_apply]
  simp only [e11, e16, e18, e21, mean_ps, spread_ps, Ideal.hostUnary_rsqrt_def, Ideal.addf_def, Ideal.mulf_def, Ideal.subf_def]
  rfl

/-! ## Runs of atoms -/

/-- The atom at place m of run s: the runs are contiguous and 16384 long. -/
private def atomAt (s : Fin 4) (m : Fin 16384) : Fin 65536 :=
  ⟨s.val * 16384 + m.val, by have := s.isLt; have := m.isLt; omega⟩

/-- The place of atom n inside its run. -/
private def placeOf (n : Fin 65536) : Fin 16384 := ⟨n.val % 16384, Nat.mod_lt _ (by decide)⟩

/-- Atom n is the atom at its place in the run of its species: n = 16384 · (n / 16384) + n % 16384. -/
private theorem atomAt_species (n : Fin 65536) : atomAt (Energy.species n) (placeOf n) = n :=
  Fin.ext (by show n.val / 16384 * 16384 + n.val % 16384 = n.val; omega)

/-- The normalised rows viewed as 4 runs of 16384 rows: row m of run s is the row of atom 16384·s + m, since the
    flat position (16384·s + m)·512 + k has quotient 16384·s + m and remainder k by 512. -/
theorem split_ps (x0 : (⟨S65536x512, .f32⟩ : BufTy).Contents (Elt Ideal)) (x3 x4 : (⟨S512, .f32⟩ : BufTy).Contents (Elt Ideal))
    (s : Fin 4) (m : Fin 16384) (k : Fin 512) :
    val_main_v48 (F := Ideal) x0 x3 x4 (ix3 s m k) = val_main_v23 (F := Ideal) x0 x3 x4 (ix2 (atomAt s m) k) := by
  have e : idx_main_v48 (ix3 s m k) = ix2 (atomAt s m) k :=
    funext fun a => Fin.ext (by
      have := s.isLt; have := m.isLt; have := k.isLt
      match a with
      | ⟨0, _⟩ => show ((s.val * 16384 + m.val) * 512 + k.val) / 512 = s.val * 16384 + m.val; omega
      | ⟨1, _⟩ => show ((s.val * 16384 + m.val) * 512 + k.val) % 512 = k.val; omega)
  rw [val_main_v48_apply, e]

/-! ## The three weight matrices and the activation -/

/-- The word 0x3F800000 is the number 1. -/
theorem one_word_ps : Ideal.ofBits .f32 0x3F800000#32 = 1 := IdealRules.sign_bit.ideal_onePat .f32

/-- The first contraction: entry j of row m of run s is the sum over k of the normalised row of atom 16384·s + m
    at k times the first weight matrix of species s at (k, j). -/
theorem dot1_ps (x0 : (⟨S65536x512, .f32⟩ : BufTy).Contents (Elt Ideal)) (x3 x4 : (⟨S512, .f32⟩ : BufTy).Contents (Elt Ideal))
    (x7 : (⟨S4x512x256, .f32⟩ : BufTy).Contents (Elt Ideal)) (s : Fin 4) (m : Fin 16384) (j : Fin 256) :
    val_main_v49 (F := Ideal) x0 x3 x4 x7 (ix3 s m j)
      = ∑ k : Fin 512, val_main_v23 (F := Ideal) x0 x3 x4 (ix2 (atomAt s m) k) * x7 (ix3 s k j) := by
  have el : ∀ k : Fin 512, lidx_main_v49 (ix3 s m j) k = ix3 s m k := fun k =>
    funext fun a => Fin.ext (by match a with | ⟨0, _⟩ => rfl | ⟨1, _⟩ => rfl | ⟨2, _⟩ => rfl)
  have er : ∀ k : Fin 512, ridx_main_v49 (ix3 s m j) k = ix3 s k j := fun k =>
    funext fun a => Fin.ext (by match a with | ⟨0, _⟩ => rfl | ⟨1, _⟩ => rfl | ⟨2, _⟩ => rfl)
  rw [val_main_v49_apply]
  simp only [el, er, split_ps]

/-- After the first contraction every entry y becomes y · (1 / (1 + e^(-y))), which is the activation of y. -/
theorem act1_ps (x0 : (⟨S65536x512, .f32⟩ : BufTy).Contents (Elt Ideal)) (x3 x4 : (⟨S512, .f32⟩ : BufTy).Contents (Elt Ideal))
    (x7 : (⟨S4x512x256, .f32⟩ : BufTy).Contents (Elt Ideal)) (i : S4x16384x256.Idx) :
    val_main_v50 (F := Ideal) x0 x3 x4 x7 i = Energy.silu (val_main_v49 (F := Ideal) x0 x3 x4 x7 i) := by
  rw [val_main_v50_apply, val_main_call0_v5_apply, val_main_call0_v4_apply, val_main_call0_cst_0_apply, val_main_call0_v3_apply,
    val_main_call0_v2_apply, val_main_call0_cst_apply, val_main_call0_v1_apply, val_main_call0_v0_apply]
  simp only [Ideal.mulf_def, Ideal.hostDivf_def, Ideal.addf_def, Ideal.hostUnary_exp_def, Ideal.hostNegf_def, Ideal.negf_def,
    Ideal.ofBits_def]
  exact Energy.silu_spelt _ one_word_ps _

/-- The second contraction: entry h of row m of run s is the sum over j of the activation of the first
    contraction's entry j times the second weight matrix of species s at (j, h). -/
theorem dot2_ps (x0 : (⟨S65536x512, .f32⟩ : BufTy).Contents (Elt Ideal)) (x3 x4 : (⟨S512, .f32⟩ : BufTy).Contents (Elt Ideal))
    (x7 : (⟨S4x512x256, .f32⟩ : BufTy).Contents (Elt Ideal)) (x8 : (⟨S4x256x256, .f32⟩ : BufTy).Contents (Elt Ideal))
    (s : Fin 4) (m : Fin 16384) (h : Fin 256) :
    val_main_v51 (F := Ideal) x0 x3 x4 x7 x8 (ix3 s m h)
      = ∑ j : Fin 256, Energy.silu (val_main_v49 (F := Ideal) x0 x3 x4 x7 (ix3 s m j)) * x8 (ix3 s j h) := by
  have el : ∀ j : Fin 256, lidx_main_v51 (ix3 s m h) j = ix3 s m j := fun j =>
    funext fun a => Fin.ext (by match a with | ⟨0, _⟩ => rfl | ⟨1, _⟩ => rfl | ⟨2, _⟩ => rfl)
  have er : ∀ j : Fin 256, ridx_main_v51 (ix3 s m h) j = ix3 s j h := fun j =>
    funext fun a => Fin.ext (by match a with | ⟨0, _⟩ => rfl | ⟨1, _⟩ => rfl | ⟨2, _⟩ => rfl)
  rw [val_main_v51_apply]
  simp only [el, er, act1_ps]

/-- After the second contraction every entry y becomes y · (1 / (1 + e^(-y))) again, the activation of y. -/
theorem act2_ps (x0 : (⟨S65536x512, .f32⟩ : BufTy).Contents (Elt Ideal)) (x3 x4 : (⟨S512, .f32⟩ : BufTy).Contents (Elt Ideal))
    (x7 : (⟨S4x512x256, .f32⟩ : BufTy).Contents (Elt Ideal)) (x8 : (⟨S4x256x256, .f32⟩ : BufTy).Contents (Elt Ideal))
    (i : S4x16384x256.Idx) :
    val_main_v52 (F := Ideal) x0 x3 x4 x7 x8 i = Energy.silu (val_main_v51 (F := Ideal) x0 x3 x4 x7 x8 i) := by
  rw [val_main_v52_apply, val_main_call1_v5_apply, val_main_call1_v4_apply, val_main_call1_cst_0_apply, val_main_call1_v3_apply,
    val_main_call1_v2_apply, val_main_call1_cst_apply, val_main_call1_v1_apply, val_main_call1_v0_apply]
  simp only [Ideal.mulf_def, Ideal.hostDivf_def, Ideal.addf_def, Ideal.hostUnary_exp_def, Ideal.hostNegf_def, Ideal.negf_def,
    Ideal.ofBits_def]
  exact Energy.silu_spelt _ one_word_ps _

/-- The third contraction leaves one number per row: for row m of run s, the sum over h of the activation of the
    second contraction's entry h times the third weight of species s at h. -/
theorem dot3_ps (x0 : (⟨S65536x512, .f32⟩ : BufTy).Contents (Elt Ideal)) (x3 x4 : (⟨S512, .f32⟩ : BufTy).Contents (Elt Ideal))
    (x7 : (⟨S4x512x256, .f32⟩ : BufTy).Contents (Elt Ideal)) (x8 : (⟨S4x256x256, .f32⟩ : BufTy).Contents (Elt Ideal))
    (x9 : (⟨S4x256x1, .f32⟩ : BufTy).Contents (Elt Ideal)) (s : Fin 4) (m : Fin 16384) :
    val_main_v53 (F := Ideal) x0 x3 x4 x7 x8 x9 (ix3 s m 0)
      = ∑ h : Fin 256, Energy.silu (val_main_v51 (F := Ideal) x0 x3 x4 x7 x8 (ix3 s m h)) * x9 (ix3 s h 0) := by
  have el : ∀ h : Fin 256, lidx_main_v53 (ix3 s m (0 : Fin 1)) h = ix3 s m h := fun h =>
    funext fun a => Fin.ext (by match a with | ⟨0, _⟩ => rfl | ⟨1, _⟩ => rfl | ⟨2, _⟩ => rfl)
  have er : ∀ h : Fin 256, ridx_main_v53 (ix3 s m (0 : Fin 1)) h = ix3 s h (0 : Fin 1) := fun h =>
    funext fun a => Fin.ext (by match a with | ⟨0, _⟩ => rfl | ⟨1, _⟩ => rfl | ⟨2, _⟩ => rfl)
  rw [val_main_v53_apply]
  simp only [el, er, act2_ps]

/-- The 4 runs of 16384 numbers viewed as one column of 65536: entry n comes from run n / 16384, the species of
    atom n, at place n % 16384. -/
theorem merge_ps (x0 : (⟨S65536x512, .f32⟩ : BufTy).Contents (Elt Ideal)) (x3 x4 : (⟨S512, .f32⟩ : BufTy).Contents (Elt Ideal))
    (x7 : (⟨S4x512x256, .f32⟩ : BufTy).Contents (Elt Ideal)) (x8 : (⟨S4x256x256, .f32⟩ : BufTy).Contents (Elt Ideal))
    (x9 : (⟨S4x256x1, .f32⟩ : BufTy).Contents (Elt Ideal)) (n : Fin 65536) :
    val_main_v54 (F := Ideal) x0 x3 x4 x7 x8 x9 (ix2 n 0)
      = val_main_v53 (F := Ideal) x0 x3 x4 x7 x8 x9 (ix3 (Energy.species n) (placeOf n) 0) := by
  have e : idx_main_v54 (ix2 n (0 : Fin 1)) = ix3 (Energy.species n) (placeOf n) (0 : Fin 1) :=
    funext fun a => Fin.ext (by
      have := n.isLt
      match a with
      | ⟨0, _⟩ => show (n.val * 1 + 0) / 16384 = n.val / 16384; omega
      | ⟨1, _⟩ => show (n.val * 1 + 0) / 1 % 16384 = n.val % 16384; omega
      | ⟨2, _⟩ => rfl)
  rw [val_main_v54_apply, e]

/-! ## The energy of an atom -/

/-- Entry n of the reference's 512-feature column is the energy of atom n: its run is the atom's species, the atom
    at its place in that run is n itself, so the three contractions act on the normalised row of n with the
    weights of n's species. -/
theorem ref_ps (x0 : (⟨S65536x512, .f32⟩ : BufTy).Contents (Elt Ideal)) (x3 x4 : (⟨S512, .f32⟩ : BufTy).Contents (Elt Ideal))
    (x7 : (⟨S4x512x256, .f32⟩ : BufTy).Contents (Elt Ideal)) (x8 : (⟨S4x256x256, .f32⟩ : BufTy).Contents (Elt Ideal))
    (x9 : (⟨S4x256x1, .f32⟩ : BufTy).Contents (Elt Ideal)) (n : Fin 65536) :
    val_main_v54 (F := Ideal) x0 x3 x4 x7 x8 x9 (ix2 n 0)
      = Energy.energy (ι := Fin 512) (κ := Fin 256) (Ideal.ofBits .f32 0x44000000#32) (Ideal.ofBits .f32 0x3727C5AC#32)
          (fun k => x0 (ix2 n k)) (fun k => x3 (ix1 k)) (fun k => x4 (ix1 k))
          (fun k j => x7 (ix3 (Energy.species n) k j)) (fun j h => x8 (ix3 (Energy.species n) j h))
          (fun h => x9 (ix3 (Energy.species n) h 0)) := by
  rw [merge_ps, dot3_ps]
  simp only [dot2_ps, dot1_ps, atomAt_species, norm_ps]
  rfl

end Cert.RefEnergy

end
-- ==== Proof.RefMp.lean ====
/-
  The reference's energy of atom n in the 256-feature branch, read off its host operations one at a time, is the
  per-atom energy of row n with the weights of atom n's species.

  The reference normalises every row of the [65536, 256] feature array: the row's sum divided by the count word is
  its mean; the sum of the squared deviations divided by the same word, plus the offset word, goes through the
  inverse square root; each deviation is scaled by that number and by γ, and shifted by β. It then views the 65536
  rows as 4 runs of 16384, one run per species, so that row m of run s is atom 16384·s + m, and contracts run s with
  the three weight matrices of species s, the activation y · (1 / (1 + e^(-y))) spelt out after the first two
  contractions. Viewed again as 65536 rows, entry n sits in run n / 16384, the atom's species, at place n % 16384.
-/
import proofs.«422344_j78073915506942_3_alg».proof.Proof.Gen.ReferenceIdeal.Read
import proofs.«422344_j78073915506942_3_alg».proof.Proof.Energy
import Idealize.ShloMosaic.Lib.ValueIdx
import Idealize.ShloMosaic.Lib.Pipeline.Value
import Idealize.ShloMosaic.PureOps.Ideal.Laws

noncomputable section

open scoped BigOperators

namespace Cert.RefEnergy

open Idealize.ShloMosaic Idealize.ShloMosaic.ValueIdx Cert.ReferenceIdeal Cert.ReferenceIdeal.Read

/-! ## The normalised row -/

/-- The column of row means: its entry for atom n is the sum of row n divided by the count word. The sum starts
    from the zero word, which is the number 0. -/
theorem mean_mp (x1 : (⟨S65536x256, .f32⟩ : BufTy).Contents (Elt Ideal)) (n : Fin 65536) :
    val_main_v27 (F := Ideal) x1 (ix2 n 0)
      = Energy.mean (Ideal.ofBits .f32 0x43800000#32) (fun k : Fin 256 => x1 (ix2 n k)) := by
  have e : ∀ k : Fin 256, idx_main_v24 (idx_main_v25 (ix2 n (0 : Fin 1))) k = ix2 n k := fun k =>
    funext fun a => Fin.ext (by match a with | ⟨0, _⟩ => rfl | ⟨1, _⟩ => rfl)
  rw [val_main_v27_apply, val_main_v25_apply, val_main_v24_apply, val_main_v26_apply, val_main_cst_5_apply, val_main_cst_4_apply]
  simp only [e, Ideal.hostDivf_def, Ideal.ofBits_def, Ideal.ofBits_zero_f32, zero_add]
  rfl

/-- The column that goes under the inverse square root: for atom n, the sum over the row of the squared deviations
    from the row's mean, divided by the count word, plus the offset word. Every entry of row n sees the same mean,
    the column's entry for n. -/
theorem spread_mp (x1 : (⟨S65536x256, .f32⟩ : BufTy).Contents (Elt Ideal)) (n : Fin 65536) :
    val_main_v38 (F := Ideal) x1 (ix2 n 0)
      = Ideal.div (∑ l : Fin 256, (x1 (ix2 n l) - Energy.mean (Ideal.ofBits .f32 0x43800000#32) (fun k : Fin 256 => x1 (ix2 n k)))
            * (x1 (ix2 n l) - Energy.mean (Ideal.ofBits .f32 0x43800000#32) (fun k : Fin 256 => x1 (ix2 n k))))
          (Ideal.ofBits .f32 0x43800000#32) + Ideal.ofBits .f32 0x3727C5AC#32 := by
  have e31 : ∀ l : Fin 256, idx_main_v31 (idx_main_v32 (ix2 n (0 : Fin 1))) l = ix2 n l := fun l =>
    funext fun a => Fin.ext (by match a with | ⟨0, _⟩ => rfl | ⟨1, _⟩ => rfl)
  have e28 : ∀ l : Fin 256, idx_main_v28 (ix2 n l) = ix2 n (0 : Fin 1) := fun l =>
    funext fun a => Fin.ext (by match a with | ⟨0, _⟩ => rfl | ⟨1, _⟩ => rfl)
  rw [val_main_v38_apply, val_main_v34_apply, val_main_v32_apply, val_main_v31_apply, val_main_v33_apply, val_main_cst_7_apply,
    val_main_v37_apply, val_main_cst_8_apply, val_main_cst_6_apply]
  simp only [e31, val_main_v30_apply, val_main_v29_apply, val_main_v28_apply, e28, mean_mp, Ideal.hostDivf_def, Ideal.ofBits_def,
    Ideal.ofBits_zero_f32, zero_add, Ideal.addf_def, Ideal.mulf_def, Ideal.subf_def]

/-- Entry k of the normalised row of atom n: the deviation of x n k from the row's mean, times the inverse square
    root of the row's spread, times γ k, plus β k. The mean and the spread are read from their columns at n, and
    γ and β, stretched along the atoms, are read at k. -/
theorem norm_mp (x1 : (⟨S65536x256, .f32⟩ : BufTy).Contents (Elt Ideal)) (x5 x6 : (⟨S256, .f32⟩ : BufTy).Contents (Elt Ideal))
    (n : Fin 65536) (k : Fin 256) :
    val_main_v47 (F := Ideal) x1 x5 x6 (ix2 n k)
      = Energy.layerNorm (Ideal.ofBits .f32 0x43800000#32) (Ideal.ofBits .f32 0x3727C5AC#32)
          (fun k : Fin 256 => x1 (ix2 n k)) (fun k => x5 (ix1 k)) (fun k => x6 (ix1 k)) k := by
  have e35 : idx_main_v35 (ix2 n k) = ix2 n (0 : Fin 1) :=
    funext fun a => Fin.ext (by match a with | ⟨0, _⟩ => rfl | ⟨1, _⟩ => rfl)
  have e40 : idx_main_v40 (ix2 n k) = ix2 n (0 : Fin 1) :=
    funext fun a => Fin.ext (by match a with | ⟨0, _⟩ => rfl | ⟨1, _⟩ => rfl)
  have e42 : idx_main_v42 (idx_main_v43 (ix2 n k)) = ix1 k :=
    funext fun a => Fin.ext (by match a with | ⟨0, _⟩ => rfl)
  have e45 : idx_main_v45 (idx_main_v46 (ix2 n k)) = ix1 k :=
    funext fun a => Fin.ext (by match a with | ⟨0, _⟩ => rfl)
  rw [val_main_v47_apply, val_main_v44_apply, val_main_v41_apply, val_main_v36_apply, val_main_v35_apply, val_main_v40_apply,
    val_main_v39_apply, val_main_v43_apply, val_main_v42_apply, val_main_v46_apply, val_main_v45_apply]
  simp only [e35, e40, e42, e45, mean_mp, spread_mp, Ideal.hostUnary_rsqrt_def, Ideal.addf_def, Ideal.mulf_def, Ideal.subf_def]
  rfl

/-! ## Runs of atoms -/

/-- The atom at place m of run s: the runs are contiguous and 16384 long. -/
private def atomAt (s : Fin 4) (m : Fin 16384) : Fin 65536 :=
  ⟨s.val * 16384 + m.val, by have := s.isLt; have := m.isLt; omega⟩

/-- The place of atom n inside its run. -/
private def placeOf (n : Fin 65536) : Fin 16384 := ⟨n.val % 16384, Nat.mod_lt _ (by decide)⟩

/-- Atom n is the atom at its place in the run of its species: n = 16384 · (n / 16384) + n % 16384. -/
private theorem atomAt_species (n : Fin 65536) : atomAt (Energy.species n) (placeOf n) = n :=
  Fin.ext (by show n.val / 16384 * 16384 + n.val % 16384 = n.val; omega)

/-- The normalised rows viewed as 4 runs of 16384 rows: row m of run s is the row of atom 16384·s + m, since the
    flat position (16384·s + m)·256 + k has quotient 16384·s + m and remainder k by 256. -/
theorem split_mp (x1 : (⟨S65536x256, .f32⟩ : BufTy).Contents (Elt Ideal)) (x5 x6 : (⟨S256, .f32⟩ : BufTy).Contents (Elt Ideal))
    (s : Fin 4) (m : Fin 16384) (k : Fin 256) :
    val_main_v55 (F := Ideal) x1 x5 x6 (ix3 s m k) = val_main_v47 (F := Ideal) x1 x5 x6 (ix2 (atomAt s m) k) := by
  have e : idx_main_v55 (ix3 s m k) = ix2 (atomAt s m) k :=
    funext fun a => Fin.ext (by
      have := s.isLt; have := m.isLt; have := k.isLt
      match a with
      | ⟨0, _⟩ => show ((s.val * 16384 + m.val) * 256 + k.val) / 256 = s.val * 16384 + m.val; omega
      | ⟨1, _⟩ => show ((s.val * 16384 + m.val) * 256 + k.val) % 256 = k.val; omega)
  rw [val_main_v55_apply, e]

/-! ## The three weight matrices and the activation -/

/-- The word 0x3F800000 is the number 1. -/
theorem one_word_mp : Ideal.ofBits .f32 0x3F800000#32 = 1 := IdealRules.sign_bit.ideal_onePat .f32

/-- The first contraction: entry j of row m of run s is the sum over k of the normalised row of atom 16384·s + m
    at k times the first weight matrix of species s at (k, j). -/
theorem dot1_mp (x1 : (⟨S65536x256, .f32⟩ : BufTy).Contents (Elt Ideal)) (x5 x6 : (⟨S256, .f32⟩ : BufTy).Contents (Elt Ideal))
    (x10 : (⟨S4x256x256, .f32⟩ : BufTy).Contents (Elt Ideal)) (s : Fin 4) (m : Fin 16384) (j : Fin 256) :
    val_main_v56 (F := Ideal) x1 x5 x6 x10 (ix3 s m j)
      = ∑ k : Fin 256, val_main_v47 (F := Ideal) x1 x5 x6 (ix2 (atomAt s m) k) * x10 (ix3 s k j) := by
  have el : ∀ k : Fin 256, lidx_main_v56 (ix3 s m j) k = ix3 s m k := fun k =>
    funext fun a => Fin.ext (by match a with | ⟨0, _⟩ => rfl | ⟨1, _⟩ => rfl | ⟨2, _⟩ => rfl)
  have er : ∀ k : Fin 256, ridx_main_v56 (ix3 s m j) k = ix3 s k j := fun k =>
    funext fun a => Fin.ext (by match a with | ⟨0, _⟩ => rfl | ⟨1, _⟩ => rfl | ⟨2, _⟩ => rfl)
  rw [val_main_v56_apply]
  simp only [el, er, split_mp]

/-- After the first contraction every entry y becomes y · (1 / (1 + e^(-y))), which is the activation of y. -/
theorem act1_mp (x1 : (⟨S65536x256, .f32⟩ : BufTy).Contents (Elt Ideal)) (x5 x6 : (⟨S256, .f32⟩ : BufTy).Contents (Elt Ideal))
    (x10 : (⟨S4x256x256, .f32⟩ : BufTy).Contents (Elt Ideal)) (i : S4x16384x256.Idx) :
    val_main_v57 (F := Ideal) x1 x5 x6 x10 i = Energy.silu (val_main_v56 (F := Ideal) x1 x5 x6 x10 i) := by
  rw [val_main_v57_apply, val_main_call2_v5_apply, val_main_call2_v4_apply, val_main_call2_cst_0_apply, val_main_call2_v3_apply,
    val_main_call2_v2_apply, val_main_call2_cst_apply, val_main_call2_v1_apply, val_main_call2_v0_apply]
  simp only [Ideal.mulf_def, Ideal.hostDivf_def, Ideal.addf_def, Ideal.hostUnary_exp_def, Ideal.hostNegf_def, Ideal.negf_def,
    Ideal.ofBits_def]
  exact Energy.silu_spelt _ one_word_mp _

/-- The second contraction: entry h of row m of run s is the sum over j of the activation of the first
    contraction's entry j times the second weight matrix of species s at (j, h). -/
theorem dot2_mp (x1 : (⟨S65536x256, .f32⟩ : BufTy).Contents (Elt Ideal)) (x5 x6 : (⟨S256, .f32⟩ : BufTy).Contents (Elt Ideal))
    (x10 : (⟨S4x256x256, .f32⟩ : BufTy).Contents (Elt Ideal)) (x11 : (⟨S4x256x256, .f32⟩ : BufTy).Contents (Elt Ideal))
    (s : Fin 4) (m : Fin 16384) (h : Fin 256) :
    val_main_v58 (F := Ideal) x1 x5 x6 x10 x11 (ix3 s m h)
      = ∑ j : Fin 256, Energy.silu (val_main_v56 (F := Ideal) x1 x5 x6 x10 (ix3 s m j)) * x11 (ix3 s j h) := by
  have el : ∀ j : Fin 256, lidx_main_v58 (ix3 s m h) j = ix3 s m j := fun j =>
    funext fun a => Fin.ext (by match a with | ⟨0, _⟩ => rfl | ⟨1, _⟩ => rfl | ⟨2, _⟩ => rfl)
  have er : ∀ j : Fin 256, ridx_main_v58 (ix3 s m h) j = ix3 s j h := fun j =>
    funext fun a => Fin.ext (by match a with | ⟨0, _⟩ => rfl | ⟨1, _⟩ => rfl | ⟨2, _⟩ => rfl)
  rw [val_main_v58_apply]
  simp only [el, er, act1_mp]

/-- After the second contraction every entry y becomes y · (1 / (1 + e^(-y))) again, the activation of y. -/
theorem act2_mp (x1 : (⟨S65536x256, .f32⟩ : BufTy).Contents (Elt Ideal)) (x5 x6 : (⟨S256, .f32⟩ : BufTy).Contents (Elt Ideal))
    (x10 : (⟨S4x256x256, .f32⟩ : BufTy).Contents (Elt Ideal)) (x11 : (⟨S4x256x256, .f32⟩ : BufTy).Contents (Elt Ideal))
    (i : S4x16384x256.Idx) :
    val_main_v59 (F := Ideal) x1 x5 x6 x10 x11 i = Energy.silu (val_main_v58 (F := Ideal) x1 x5 x6 x10 x11 i) := by
  rw [val_main_v59_apply, val_main_call3_v5_apply, val_main_call3_v4_apply, val_main_call3_cst_0_apply, val_main_call3_v3_apply,
    val_main_call3_v2_apply, val_main_call3_cst_apply, val_main_call3_v1_apply, val_main_call3_v0_apply]
  simp only [Ideal.mulf_def, Ideal.hostDivf_def, Ideal.addf_def, Ideal.hostUnary_exp_def, Ideal.hostNegf_def, Ideal.negf_def,
    Ideal.ofBits_def]
  exact Energy.silu_spelt _ one_word_mp _

/-- The third contraction leaves one number per row: for row m of run s, the sum over h of the activation of the
    second contraction's entry h times the third weight of species s at h. -/
theorem dot3_mp (x1 : (⟨S65536x256, .f32⟩ : BufTy).Contents (Elt Ideal)) (x5 x6 : (⟨S256, .f32⟩ : BufTy).Contents (Elt Ideal))
    (x10 : (⟨S4x256x256, .f32⟩ : BufTy).Contents (Elt Ideal)) (x11 : (⟨S4x256x256, .f32⟩ : BufTy).Contents (Elt Ideal))
    (x12 : (⟨S4x256x1, .f32⟩ : BufTy).Contents (Elt Ideal)) (s : Fin 4) (m : Fin 16384) :
    val_main_v60 (F := Ideal) x1 x5 x6 x10 x11 x12 (ix3 s m 0)
      = ∑ h : Fin 256, Energy.silu (val_main_v58 (F := Ideal) x1 x5 x6 x10 x11 (ix3 s m h)) * x12 (ix3 s h 0) := by
  have el : ∀ h : Fin 256, lidx_main_v60 (ix3 s m (0 : Fin 1)) h = ix3 s m h := fun h =>
    funext fun a => Fin.ext (by match a with | ⟨0, _⟩ => rfl | ⟨1, _⟩ => rfl | ⟨2, _⟩ => rfl)
  have er : ∀ h : Fin 256, ridx_main_v60 (ix3 s m (0 : Fin 1)) h = ix3 s h (0 : Fin 1) := fun h =>
    funext fun a => Fin.ext (by match a with | ⟨0, _⟩ => rfl | ⟨1, _⟩ => rfl | ⟨2, _⟩ => rfl)
  rw [val_main_v60_apply]
  simp only [el, er, act2_mp]

/-- The 4 runs of 16384 numbers viewed as one column of 65536: entry n comes from run n / 16384, the species of
    atom n, at place n % 16384. -/
theorem merge_mp (x1 : (⟨S65536x256, .f32⟩ : BufTy).Contents (Elt Ideal)) (x5 x6 : (⟨S256, .f32⟩ : BufTy).Contents (Elt Ideal))
    (x10 : (⟨S4x256x256, .f32⟩ : BufTy).Contents (Elt Ideal)) (x11 : (⟨S4x256x256, .f32⟩ : BufTy).Contents (Elt Ideal))
    (x12 : (⟨S4x256x1, .f32⟩ : BufTy).Contents (Elt Ideal)) (n : Fin 65536) :
    val_main_v61 (F := Ideal) x1 x5 x6 x10 x11 x12 (ix2 n 0)
      = val_main_v60 (F := Ideal) x1 x5 x6 x10 x11 x12 (ix3 (Energy.species n) (placeOf n) 0) := by
  have e : idx_main_v61 (ix2 n (0 : Fin 1)) = ix3 (Energy.species n) (placeOf n) (0 : Fin 1) :=
    funext fun a => Fin.ext (by
      have := n.isLt
      match a with
      | ⟨0, _⟩ => show (n.val * 1 + 0) / 16384 = n.val / 16384; omega
      | ⟨1, _⟩ => show (n.val * 1 + 0) / 1 % 16384 = n.val % 16384; omega
      | ⟨2, _⟩ => rfl)
  rw [val_main_v61_apply, e]

/-! ## The energy of an atom -/

/-- Entry n of the reference's 256-feature column is the energy of atom n: its run is the atom's species, the atom
    at its place in that run is n itself, so the three contractions act on the normalised row of n with the
    weights of n's species. -/
theorem ref_mp (x1 : (⟨S65536x256, .f32⟩ : BufTy).Contents (Elt Ideal)) (x5 x6 : (⟨S256, .f32⟩ : BufTy).Contents (Elt Ideal))
    (x10 : (⟨S4x256x256, .f32⟩ : BufTy).Contents (Elt Ideal)) (x11 : (⟨S4x256x256, .f32⟩ : BufTy).Contents (Elt Ideal))
    (x12 : (⟨S4x256x1, .f32⟩ : BufTy).Contents (Elt Ideal)) (n : Fin 65536) :
    val_main_v61 (F := Ideal) x1 x5 x6 x10 x11 x12 (ix2 n 0)
      = Energy.energy (ι := Fin 256) (κ := Fin 256) (Ideal.ofBits .f32 0x43800000#32) (Ideal.ofBits .f32 0x3727C5AC#32)
          (fun k => x1 (ix2 n k)) (fun k => x5 (ix1 k)) (fun k => x6 (ix1 k))
          (fun k j => x10 (ix3 (Energy.species n) k j)) (fun j h => x11 (ix3 (Energy.species n) j h))
          (fun h => x12 (ix3 (Energy.species n) h 0)) := by
  rw [merge_mp, dot3_mp]
  simp only [dot2_mp, dot1_mp, atomAt_species, norm_mp]
  rfl

end Cert.RefEnergy

end
-- ==== Proof.PayPs.lean ====
/-
  What one grid point of the 512-feature kernel leaves in its output block: row r of the block is the per-atom
  energy of row r of the feature block, with the one species' weights the point was given.

  The block's payload is read one entry at a time. Three kinds of step occur. A sum along a row: the row sum of a
  4096 × 512 block at row r is the sum over the 512 columns, and, reshaped to a column and divided by the count, it
  is the row's mean. A product with a weight matrix: entry (r, j) of the product is the sum over the contracted
  index k of the left factor at (r, k) times the right factor at (k, j); the three products contract over 512, 256
  and 256 indices. And the entrywise steps: centring a row by its mean, scaling by the inverse root of the mean
  squared deviation plus ε, the row-wise scale γ and shift β, and the activation y ↦ y · logistic y. Narrowing an
  entry to sixteen bits changes nothing over the extended reals, and a weight block given with a leading axis of
  length one is read at index 0 of that axis.
-/
import proofs.«422344_j78073915506942_3_alg».proof.Proof.Gen.KernelIdeal.Frame
import proofs.«422344_j78073915506942_3_alg».proof.Proof.Energy
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelEnergy

open Idealize.ShloMosaic Idealize.ShloMosaic.ValueIdx Cert.KernelIdeal Cert.KernelIdeal.Gen

namespace Ps

/-! ## Columns: a vector of length a seen as an a × 1 matrix, and such a column repeated along the rows -/

section Columns
variable {α : Type}

/-- A vector of length a reshaped to an a × 1 column reads, at (p, u), the vector's entry p: the one column index u
    is 0, so both sit at row-major position p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An a × 1 column repeated over b columns reads, at (p, c), the column's entry in row p, whatever c. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## Row sums, row means and the normalised entry of a 4096 × 512 block -/

/-- The sum of a 4096 × 512 block along its rows, at row r, is the sum of that row's 512 entries. -/
theorem rowSum_apply (v : FVec Ideal S4096x512 .f32) (h : S4096x512.Reduces [1] S4096) (hφ : FKind.Formats .f32)
    (hacc : (0x00000000#32 : BitVec 32) = 0x00000000#32) (r : Fin 4096) :
    multiReduction (F := Ideal) .add [1] S4096 v 0x00000000#32 h hφ hacc (ix1 r) = ∑ k : Fin 512, v (ix2 r k) := by
  refine (Ideal.multiReduction_add_single v 0x00000000#32 h hφ hacc (ix1 r)).trans ?_
  refine Finset.sum_congr rfl fun k _ => congrArg v ?_
  funext a
  match a with
  | ⟨0, _⟩ => rfl
  | ⟨1, _⟩ => rfl

/-- The activation at an entry: y · logistic y of that entry. -/
theorem silu_apply {s : Shape} (v : FVec Ideal s .f32) (i : s.Idx) : mulf v (logistic v) i = Energy.silu (v i) := rfl

/-- The inverse square root at an entry is the inverse square root of that entry. -/
theorem rsqrt_apply {s : Shape} {φ : FTy} (a : FVec Ideal s φ) (i : s.Idx) : rsqrt a i = Ideal.rsqrt (a i) := rfl

/-- The column of row means: the row sums, as a column, divided by the count n (the float word w), read in row r, is
    the mean of row r. -/
theorem meanCol_apply (v : FVec Ideal S4096x512 .f32) (h1 : S4096x512.Reduces [1] S4096) (hφ : FKind.Formats .f32)
    (hacc : (0x00000000#32 : BitVec 32) = 0x00000000#32) (h2 : S4096.ShapeCasts S4096x1)
    (w : BitVec 32) (r : Fin 4096) (u : Fin 1) :
    divf (shapeCast S4096x1 (multiReduction (F := Ideal) .add [1] S4096 v 0x00000000#32 h1 hφ hacc) h2)
        (broadcast S4096x1 (FloatOps.ofBits (F := Ideal) .f32 w)) (ix2 r u)
      = Energy.mean (Ideal.ofBits .f32 w) (fun k : Fin 512 => v (ix2 r k)) := by
  rw [divf_apply, broadcast_apply, shapeCast_a_a1_apply, rowSum_apply]
  rfl

/-- A block minus a column repeated along the rows: entry (r, k) is the block's entry minus the column's entry in
    row r. -/
theorem centred_apply (x : FVec Ideal S4096x512 .f32) (m : FVec Ideal S4096x1 .f32) (hb : S4096x1.Broadcasts S4096x512)
    (r : Fin 4096) (k : Fin 512) :
    subf x (broadcastTo S4096x512 m hb) (ix2 r k) = x (ix2 r k) - m (ix2 r (0 : Fin 1)) := by
  rw [subf_apply, broadcastTo_a1_ab_apply]

/-- The column of scales: with d = x − m the block centred by a column m, the mean over each row of d · d, plus ε
    (the float word e), under the inverse square root; read in row r it is the inverse root of that row's mean squared
    deviation plus ε. -/
theorem scaleCol_apply (x : FVec Ideal S4096x512 .f32) (m : FVec Ideal S4096x1 .f32) (hb : S4096x1.Broadcasts S4096x512)
    (h1 : S4096x512.Reduces [1] S4096) (hφ : FKind.Formats .f32)
    (hacc : (0x00000000#32 : BitVec 32) = 0x00000000#32) (h2 : S4096.ShapeCasts S4096x1)
    (w e : BitVec 32) (r : Fin 4096) (u : Fin 1) :
    rsqrt (addf (divf (shapeCast S4096x1 (multiReduction (F := Ideal) .add [1] S4096
            (mulf (subf x (broadcastTo S4096x512 m hb)) (subf x (broadcastTo S4096x512 m hb))) 0x00000000#32 h1 hφ hacc) h2)
          (broadcast S4096x1 (FloatOps.ofBits (F := Ideal) .f32 w)))
        (broadcast S4096x1 (FloatOps.ofBits (F := Ideal) .f32 e))) (ix2 r u)
      = Ideal.rsqrt (Ideal.div (∑ l : Fin 512, (x (ix2 r l) - m (ix2 r (0 : Fin 1))) * (x (ix2 r l) - m (ix2 r (0 : Fin 1))))
          (Ideal.ofBits .f32 w) + Ideal.ofBits .f32 e) := by
  rw [rsqrt_apply, addf_apply, broadcast_apply, meanCol_apply]
  refine congrArg (fun y => Ideal.rsqrt (Ideal.div y (Ideal.ofBits .f32 w) + Ideal.ofBits .f32 e))
    (Finset.sum_congr rfl fun l _ => ?_)
  beta_reduce
  rw [mulf_apply, centred_apply]

/-- The normalising arithmetic at entry (r, k): the block centred by the column m, times the column s, times the row γ,
    plus the row β, each column read in row r and each row at column k. -/
theorem affine_apply (x : FVec Ideal S4096x512 .f32) (m s : FVec Ideal S4096x1 .f32) (g b : Vec Ideal S1x512 .f32)
    (hb1 : S4096x1.Broadcasts S4096x512) (hb2 : S1x512.Broadcasts S4096x512) (hs : S1x512.ShapeCasts S1x512)
    (r : Fin 4096) (k : Fin 512) :
    addf (mulf (mulf (subf x (broadcastTo S4096x512 m hb1)) (broadcastTo S4096x512 s hb1))
        (broadcastTo S4096x512 (shapeCast S1x512 g hs) hb2)) (broadcastTo S4096x512 (shapeCast S1x512 b hs) hb2) (ix2 r k)
      = (x (ix2 r k) - m (ix2 r (0 : Fin 1))) * s (ix2 r (0 : Fin 1)) * g (ix2 (0 : Fin 1) k) + b (ix2 (0 : Fin 1) k) := by
  rw [addf_apply, mulf_apply, mulf_apply, centred_apply, broadcastTo_a1_ab_apply, shapeCast_self, shapeCast_self,
    broadcastTo_1b_ab_apply, broadcastTo_1b_ab_apply]

/-! ## The first product: 4096 × 512 times 512 × 256, contracting the 512 -/

/-- The left factor's row index is the result's row index, -/
theorem lhs1_0 (i : S4096x256.Idx) (q : dot_S4096x512_S512x256_S4096x256_1_0_0_1_n_n.contr.Idx) :
    (dot_S4096x512_S512x256_S4096x256_1_0_0_1_n_n.lhsIdx i q 0).val = (i 0).val := by
  unfold DotDims.lhsIdx
  rw [dif_neg (show ¬(0 : Fin S4096x512.rank) ∈ dot_S4096x512_S512x256_S4096x256_1_0_0_1_n_n.lhsBatch by decide),
    dif_pos (show (0 : Fin S4096x512.rank) ∈ dot_S4096x512_S512x256_S4096x256_1_0_0_1_n_n.lhsNonContracting by decide)]
  rfl
/-- its column index the contracted index; -/
theorem lhs1_1 (i : S4096x256.Idx) (q : dot_S4096x512_S512x256_S4096x256_1_0_0_1_n_n.contr.Idx) :
    (dot_S4096x512_S512x256_S4096x256_1_0_0_1_n_n.lhsIdx i q 1).val = (q ⟨0, by decide⟩).val :=
  dot_S4096x512_S512x256_S4096x256_1_0_0_1_n_n.lhsIdx_val_of_single rfl i q
/-- the right factor's row index is the contracted index, -/
theorem rhs1_0 (i : S4096x256.Idx) (q : dot_S4096x512_S512x256_S4096x256_1_0_0_1_n_n.contr.Idx) :
    (dot_S4096x512_S512x256_S4096x256_1_0_0_1_n_n.rhsIdx i q 0).val = (q ⟨0, by decide⟩).val :=
  dot_S4096x512_S512x256_S4096x256_1_0_0_1_n_n.rhsIdx_val_of_single rfl i q
/-- its column index the result's column index. -/
theorem rhs1_1 (i : S4096x256.Idx) (q : dot_S4096x512_S512x256_S4096x256_1_0_0_1_n_n.contr.Idx) :
    (dot_S4096x512_S512x256_S4096x256_1_0_0_1_n_n.rhsIdx i q 1).val = (i 1).val := by
  unfold DotDims.rhsIdx
  rw [dif_neg (show ¬(1 : Fin S512x256.rank) ∈ dot_S4096x512_S512x256_S4096x256_1_0_0_1_n_n.rhsBatch by decide),
    dif_pos (show (1 : Fin S512x256.rank) ∈ dot_S4096x512_S512x256_S4096x256_1_0_0_1_n_n.rhsNonContracting by decide)]
  rfl

/-- Entry (r, j) of the first product, accumulated from zero: the sum over k of the left factor at (r, k) times the right
    factor at (k, j). -/
theorem matmul1_apply (lhs : FVec Ideal S4096x512 .bf16) (rhs : FVec Ideal S512x256 .bf16) (r : Fin 4096) (j : Fin 256) :
    matmul dot_S4096x512_S512x256_S4096x256_1_0_0_1_n_n none lhs rhs (constant (F := Ideal) S4096x256 .f32 0x00000000#32) (ix2 r j)
      = ∑ k : Fin 512, lhs (ix2 r k) * rhs (ix2 k j) := by
  simp only [matmul]
  rw [Ideal.matmul_constant_zero_apply,
    ← Equiv.sum_comp (contrEquiv1 dot_S4096x512_S512x256_S4096x256_1_0_0_1_n_n 512 rfl rfl).symm]
  refine Finset.sum_congr rfl fun k _ => ?_
  have hk := contrEquiv1_symm_val dot_S4096x512_S512x256_S4096x256_1_0_0_1_n_n 512 rfl rfl k
  have el : dot_S4096x512_S512x256_S4096x256_1_0_0_1_n_n.lhsIdx (ix2 r j)
      ((contrEquiv1 dot_S4096x512_S512x256_S4096x256_1_0_0_1_n_n 512 rfl rfl).symm k) = ix2 r k :=
    funext fun a => Fin.ext (by
      match a with
      | ⟨0, _⟩ => exact lhs1_0 _ _
      | ⟨1, _⟩ => exact (lhs1_1 _ _).trans hk)
  have er : dot_S4096x512_S512x256_S4096x256_1_0_0_1_n_n.rhsIdx (ix2 r j)
      ((contrEquiv1 dot_S4096x512_S512x256_S4096x256_1_0_0_1_n_n 512 rfl rfl).symm k) = ix2 k j :=
    funext fun a => Fin.ext (by
      match a with
      | ⟨0, _⟩ => exact (rhs1_0 _ _).trans hk
      | ⟨1, _⟩ => exact rhs1_1 _ _)
  rw [el, er]

/-! ## The second product: 4096 × 256 times 256 × 256, contracting the first 256 -/

/-- The left factor's row index is the result's row index, -/
theorem lhs2_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide),
    dif_pos (show (0 : Fin S4096x256.rank) ∈ dot_S4096x256_S256x256_S4096x256_1_0_0_1_n_n.lhsNonContracting by decide)]
  rfl
/-- its column index the contracted index; -/
theorem lhs2_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
/-- the right factor's row index is the contracted index, -/
theorem rhs2_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
/-- its column index the result's column index. -/
theorem rhs2_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide),
    dif_pos (show (1 : Fin S256x256.rank) ∈ dot_S4096x256_S256x256_S4096x256_1_0_0_1_n_n.rhsNonContracting by decide)]
  rfl

/-- Entry (r, h) of the second product, accumulated from zero: the sum over j of the left factor at (r, j) times the
    right factor at (j, h). -/
theorem matmul2_apply (lhs : FVec Ideal S4096x256 .bf16) (rhs : FVec Ideal S256x256 .bf16) (r : Fin 4096) (h : Fin 256) :
    matmul dot_S4096x256_S256x256_S4096x256_1_0_0_1_n_n none lhs rhs (constant (F := Ideal) S4096x256 .f32 0x00000000#32) (ix2 r h)
      = ∑ j : Fin 256, lhs (ix2 r j) * rhs (ix2 j h) := by
  simp only [matmul]
  rw [Ideal.matmul_constant_zero_apply,
    ← Equiv.sum_comp (contrEquiv1 dot_S4096x256_S256x256_S4096x256_1_0_0_1_n_n 256 rfl rfl).symm]
  refine Finset.sum_congr rfl fun j _ => ?_
  have hj := contrEquiv1_symm_val dot_S4096x256_S256x256_S4096x256_1_0_0_1_n_n 256 rfl rfl j
  have el : dot_S4096x256_S256x256_S4096x256_1_0_0_1_n_n.lhsIdx (ix2 r h)
      ((contrEquiv1 dot_S4096x256_S256x256_S4096x256_1_0_0_1_n_n 256 rfl rfl).symm j) = ix2 r j :=
    funext fun a => Fin.ext (by
      match a with
      | ⟨0, _⟩ => exact lhs2_0 _ _
      | ⟨1, _⟩ => exact (lhs2_1 _ _).trans hj)
  have er : dot_S4096x256_S256x256_S4096x256_1_0_0_1_n_n.rhsIdx (ix2 r h)
      ((contrEquiv1 dot_S4096x256_S256x256_S4096x256_1_0_0_1_n_n 256 rfl rfl).symm j) = ix2 j h :=
    funext fun a => Fin.ext (by
      match a with
      | ⟨0, _⟩ => exact (rhs2_0 _ _).trans hj
      | ⟨1, _⟩ => exact rhs2_1 _ _)
  rw [el, er]

/-! ## The third product: 4096 × 256 times 256 × 1, contracting the 256 -/

/-- The left factor's row index is the result's row index, -/
theorem lhs3_0 (i : S4096x1.Idx) (q : dot_S4096x256_S256x1_S4096x1_1_0_0_1_n_n.contr.Idx) :
    (dot_S4096x256_S256x1_S4096x1_1_0_0_1_n_n.lhsIdx i q 0).val = (i 0).val := by
  unfold DotDims.lhsIdx
  rw [dif_neg (show ¬(0 : Fin S4096x256.rank) ∈ dot_S4096x256_S256x1_S4096x1_1_0_0_1_n_n.lhsBatch by decide),
    dif_pos (show (0 : Fin S4096x256.rank) ∈ dot_S4096x256_S256x1_S4096x1_1_0_0_1_n_n.lhsNonContracting by decide)]
  rfl
/-- its column index the contracted index; -/
theorem lhs3_1 (i : S4096x1.Idx) (q : dot_S4096x256_S256x1_S4096x1_1_0_0_1_n_n.contr.Idx) :
    (dot_S4096x256_S256x1_S4096x1_1_0_0_1_n_n.lhsIdx i q 1).val = (q ⟨0, by decide⟩).val :=
  dot_S4096x256_S256x1_S4096x1_1_0_0_1_n_n.lhsIdx_val_of_single rfl i q
/-- the right factor's row index is the contracted index, -/
theorem rhs3_0 (i : S4096x1.Idx) (q : dot_S4096x256_S256x1_S4096x1_1_0_0_1_n_n.contr.Idx) :
    (dot_S4096x256_S256x1_S4096x1_1_0_0_1_n_n.rhsIdx i q 0).val = (q ⟨0, by decide⟩).val :=
  dot_S4096x256_S256x1_S4096x1_1_0_0_1_n_n.rhsIdx_val_of_single rfl i q
/-- its column index the result's column index. -/
theorem rhs3_1 (i : S4096x1.Idx) (q : dot_S4096x256_S256x1_S4096x1_1_0_0_1_n_n.contr.Idx) :
    (dot_S4096x256_S256x1_S4096x1_1_0_0_1_n_n.rhsIdx i q 1).val = (i 1).val := by
  unfold DotDims.rhsIdx
  rw [dif_neg (show ¬(1 : Fin S256x1.rank) ∈ dot_S4096x256_S256x1_S4096x1_1_0_0_1_n_n.rhsBatch by decide),
    dif_pos (show (1 : Fin S256x1.rank) ∈ dot_S4096x256_S256x1_S4096x1_1_0_0_1_n_n.rhsNonContracting by decide)]
  rfl

/-- Entry (r, u) of the third product, accumulated from zero: the sum over h of the left factor at (r, h) times the right
    factor at (h, u). -/
theorem matmul3_apply (lhs : FVec Ideal S4096x256 .f32) (rhs : FVec Ideal S256x1 .f32) (r : Fin 4096) (u : Fin 1) :
    matmul dot_S4096x256_S256x1_S4096x1_1_0_0_1_n_n none lhs rhs (constant (F := Ideal) S4096x1 .f32 0x00000000#32) (ix2 r u)
      = ∑ h : Fin 256, lhs (ix2 r h) * rhs (ix2 h u) := by
  simp only [matmul]
  rw [Ideal.matmul_constant_zero_apply,
    ← Equiv.sum_comp (contrEquiv1 dot_S4096x256_S256x1_S4096x1_1_0_0_1_n_n 256 rfl rfl).symm]
  refine Finset.sum_congr rfl fun h _ => ?_
  have hh := contrEquiv1_symm_val dot_S4096x256_S256x1_S4096x1_1_0_0_1_n_n 256 rfl rfl h
  have el : dot_S4096x256_S256x1_S4096x1_1_0_0_1_n_n.lhsIdx (ix2 r u)
      ((contrEquiv1 dot_S4096x256_S256x1_S4096x1_1_0_0_1_n_n 256 rfl rfl).symm h) = ix2 r h :=
    funext fun a => Fin.ext (by
      match a with
      | ⟨0, _⟩ => exact lhs3_0 _ _
      | ⟨1, _⟩ => exact (lhs3_1 _ _).trans hh)
  have er : dot_S4096x256_S256x1_S4096x1_1_0_0_1_n_n.rhsIdx (ix2 r u)
      ((contrEquiv1 dot_S4096x256_S256x1_S4096x1_1_0_0_1_n_n 256 rfl rfl).symm h) = ix2 h u :=
    funext fun a => Fin.ext (by
      match a with
      | ⟨0, _⟩ => exact (rhs3_0 _ _).trans hh
      | ⟨1, _⟩ => exact rhs3_1 _ _)
  rw [el, er]

/-! ## The two payloads at an entry, and the output block -/

/-- The hidden layer at (r, h): the normalised row r through the first weight matrix, the activation, and the second
    weight matrix, the weights read at index 0 of their leading axis. -/
theorem pay2_apply (x0 : Vec Ideal S4096x512 .f32) (x1 x2 : Vec Ideal S1x512 .f32) (x3 : Vec Ideal S1x512x256 .f32)
    (x4 : Vec Ideal S1x256x256 .f32) (r : Fin 4096) (h : Fin 256) :
    k0_pay2 (F := Ideal) x0 x1 x2 x3 x4 (ix2 r h)
      = ∑ j : Fin 256, Energy.silu (∑ k : Fin 512,
          Energy.layerNorm (Ideal.ofBits .f32 0x44000000#32) (Ideal.ofBits .f32 0x3727C5AC#32)
            (fun k => x0 (ix2 r k)) (fun k => x1 (ix2 0 k)) (fun k => x2 (ix2 0 k)) k * x3 (ix3 0 k j)) * x4 (ix3 0 j h) := by
  unfold k0_pay2
  rw [matmul2_apply]
  refine Finset.sum_congr rfl fun j _ => ?_
  rw [truncf_apply, truncf_apply, shapeCast_1ab_ab_apply, silu_apply, matmul1_apply]
  refine congrArg (fun y => Energy.silu y * x4 (ix3 0 j h)) ?_
  refine Finset.sum_congr rfl fun k _ => ?_
  rw [truncf_apply, truncf_apply, shapeCast_1ab_ab_apply, affine_apply, scaleCol_apply, meanCol_apply]
  rfl

/-- The last layer at (r, u): the activation of the hidden layer's row r against the third weight matrix. -/
theorem pay1_apply (v38 : FVec Ideal S4096x256 .f32) (x5 : Vec Ideal S1x256x1 .f32) (r : Fin 4096) (u : Fin 1) :
    k0_pay1 (F := Ideal) v38 x5 (ix2 r u) = ∑ h : Fin 256, Energy.silu (v38 (ix2 r h)) * x5 (ix3 0 h u) := by
  unfold k0_pay1
  rw [matmul3_apply]
  refine Finset.sum_congr rfl fun h _ => ?_
  rw [silu_apply, shapeCast_1ab_ab_apply]

end Ps

/-- Row r of the output block is the energy of row r of the feature block under the given scale, shift and weights:
    every block is read whole, the one store covers the output block, and the two payloads compose to the energy. -/
theorem out_ps (x0 : Vec Ideal S4096x512 .f32) (x1 x2 : Vec Ideal S1x512 .f32) (x3 : Vec Ideal S1x512x256 .f32)
    (x4 : Vec Ideal S1x256x256 .f32) (x5 : Vec Ideal S1x256x1 .f32) (r : Fin 4096) :
    out0_6 (F := Ideal) x0 x1 x2 x3 x4 x5 (ix2 r 0)
      = Energy.energy (ι := Fin 512) (κ := Fin 256) (Ideal.ofBits .f32 0x44000000#32) (Ideal.ofBits .f32 0x3727C5AC#32)
          (fun k => x0 (ix2 r k)) (fun k => x1 (ix2 0 k)) (fun k => x2 (ix2 0 k))
          (fun k j => x3 (ix3 0 k j)) (fun j h => x4 (ix3 0 j h)) (fun h => x5 (ix3 0 h 0)) := by
  have hz2 : (![0, 0] : Fin 2 → Nat) = fun _ => 0 := by
    funext a; match a with | ⟨0, _⟩ => rfl | ⟨1, _⟩ => rfl
  have hz3 : (![0, 0, 0] : Fin 3 → Nat) = fun _ => 0 := by
    funext a; match a with | ⟨0, _⟩ => rfl | ⟨1, _⟩ => rfl | ⟨2, _⟩ => rfl
  unfold out0_6
  rw [View.canon_unit_zero hz2]
  simp only [View.ld_unit_zero (S := S4096x512) hz2, View.ld_unit_zero (S := S1x512) hz2,
    View.ld_unit_zero (S := S1x512x256) hz3, View.ld_unit_zero (S := S1x256x256) hz3,
    View.ld_unit_zero (S := S1x256x1) hz3]
  rw [Ps.pay1_apply]
  unfold Energy.energy
  refine Finset.sum_congr rfl fun h _ => ?_
  rw [Ps.pay2_apply]

end Cert.KernelEnergy

end
-- ==== Proof.KernelPs.lean ====
import proofs.«422344_j78073915506942_3_alg».proof.Proof.RunValue
import proofs.«422344_j78073915506942_3_alg».proof.Proof.PayPs
import proofs.«422344_j78073915506942_3_alg».proof.Proof.Energy
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384
noncomputable section
open scoped BigOperators
namespace Cert.KernelValue
open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-! # The 512-feature region: its output array after the run

Region 0 runs over a 4 × 4 grid: point (s, u) is given rows (4 s + u) · 4096 … + 4095 of the feature array, the
scale and shift rows, and species s's three weight matrices, and writes the same rows of the energy column. Every
row of a block is the per-atom energy of that row; the rows (4 s + u) · 4096 + r all lie in species s's run of
16384 atoms, so the block is a block of ONE function of the launch arrays, and the 16 blocks tile the column. -/

/-! ## The arrays as the region finds them -/

theorem V1_arg0 (c : Dev nD) : V1 m ρ c main_arg0 = m ((c : Thread nD τ).loc main_arg0) := by
  show StableHlo.after hostOps0 (W0 m ρ c) (Proc.devRef .tc main_arg0) = _
  after_results_simp <;> rfl
theorem V1_arg7 (c : Dev nD) : V1 m ρ c main_arg7 = m ((c : Thread nD τ).loc main_arg7) := by
  show StableHlo.after hostOps0 (W0 m ρ c) (Proc.devRef .tc main_arg7) = _
  after_results_simp <;> rfl
theorem V1_arg8 (c : Dev nD) : V1 m ρ c main_arg8 = m ((c : Thread nD τ).loc main_arg8) := by
  show StableHlo.after hostOps0 (W0 m ρ c) (Proc.devRef .tc main_arg8) = _
  after_results_simp <;> rfl
theorem V1_arg9 (c : Dev nD) : V1 m ρ c main_arg9 = m ((c : Thread nD τ).loc main_arg9) := by
  show StableHlo.after hostOps0 (W0 m ρ c) (Proc.devRef .tc main_arg9) = _
  after_results_simp <;> rfl
/-- The scale row is the scale vector viewed as one row. -/
theorem V1_v0 (c : Dev nD) : V1 m ρ c main_v0 = shapeCast S1x512 (m ((c : Thread nD τ).loc main_arg3)) shapeCasts_S512_S1x512 := by
  show StableHlo.after hostOps0 (W0 m ρ c) (Proc.devRef .tc main_v0) = _
  after_results
  rfl
/-- The shift row likewise. -/
theorem V1_v1 (c : Dev nD) : V1 m ρ c main_v1 = shapeCast S1x512 (m ((c : Thread nD τ).loc main_arg4)) shapeCasts_S512_S1x512 := by
  show StableHlo.after hostOps0 (W0 m ρ c) (Proc.devRef .tc main_v1) = _
  after_results
  rfl

/-! ## The energy column of the 512-feature branch, as one function of the launch arrays -/

/-- Entry (n, 0): the per-atom energy of feature row n under the weights of atom n's species. -/
def Eps (c : Dev nD) : S65536x1.Idx → EReal := fun i =>
  Cert.Energy.energy (ι := Fin 512) (κ := Fin 256) (Ideal.ofBits .f32 0x44000000#32) (Ideal.ofBits .f32 0x3727C5AC#32)
    (fun k => m ((c : Thread nD τ).loc main_arg0) (ix2 (i 0) k))
    (fun k => m ((c : Thread nD τ).loc main_arg3) (ix1 k))
    (fun k => m ((c : Thread nD τ).loc main_arg4) (ix1 k))
    (fun k j => m ((c : Thread nD τ).loc main_arg7) (ix3 (Cert.Energy.species (i 0)) k j))
    (fun j h => m ((c : Thread nD τ).loc main_arg8) (ix3 (Cert.Energy.species (i 0)) j h))
    (fun h => m ((c : Thread nD τ).loc main_arg9) (ix3 (Cert.Energy.species (i 0)) h 0))

/-! ## The index maps, decided over the 16 grid points -/

/-- The feature block moves with the output block; the scale and shift rows stay; the weight blocks are species
    (output block index / 4); the output block index runs over 0 … 15. -/
theorem idx_facts0 : ∀ t : Fin cfg0.N,
    win0_0.index t (0 : Fin 2) = win0_6.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = win0_6.index t (0 : Fin 2) / 4 ∧ win0_3.index t (1 : Fin 3) = 0 ∧ win0_3.index t (2 : Fin 3) = 0
    ∧ win0_4.index t (0 : Fin 3) = win0_6.index t (0 : Fin 2) / 4 ∧ win0_4.index t (1 : Fin 3) = 0 ∧ win0_4.index t (2 : Fin 3) = 0
    ∧ win0_5.index t (0 : Fin 3) = win0_6.index t (0 : Fin 2) / 4 ∧ win0_5.index t (1 : Fin 3) = 0 ∧ win0_5.index t (2 : Fin 3) = 0
    ∧ win0_6.index t (0 : Fin 2) ≤ 15 ∧ win0_6.index t (1 : Fin 2) = 0 :=
  (by decide +kernel : ∀ t : Fin grid0.N, _)

/-- Every block of the column is some point's. -/
theorem idx_onto0 : ∀ q : Fin 16, ∃ t : Fin cfg0.N, win0_6.index t = ![q.val, 0] :=
  (by decide +kernel : ∀ q : Fin 16, ∃ t : Fin grid0.N, win0_6.index t = ![q.val, 0])

/-! ## What a point writes back -/

theorem flushed_ps (c : Dev nD) (t : Fin cfg0.N) :
    (dat0 (V1 m ρ) c).flushed 6 t = ((cfg0.win 6).blk t).view.read (Elt Ideal) (Eps m c) := by
  show (cfg0.win 6).cut (grid0.coords t) ((dat0 (V1 m ρ) c).after 6 t) = _
  rw [after0_6]
  funext y
  obtain ⟨r, q, rfl⟩ : ∃ (r : Fin 4096) (q : Fin 1), y = ix2 r q := ⟨y 0, y 1, eq_ix2 y⟩
  obtain rfl : q = 0 := Subsingleton.elim _ _
  show out0_6 (iblk0 (V1 m ρ) c 0 t) (iblk0 (V1 m ρ) c 1 t) (iblk0 (V1 m ρ) c 2 t) (iblk0 (V1 m ρ) c 3 t)
      (iblk0 (V1 m ρ) c 4 t) (iblk0 (V1 m ρ) c 5 t) (ix2 r 0) = Eps m c (((cfg0.win 6).blk t).view.emb (ix2 r 0))
  refine (Cert.KernelEnergy.out_ps (iblk0 (V1 m ρ) c 0 t) (iblk0 (V1 m ρ) c 1 t) (iblk0 (V1 m ρ) c 2 t)
    (iblk0 (V1 m ρ) c 3 t) (iblk0 (V1 m ρ) c 4 t) (iblk0 (V1 m ρ) c 5 t) r).trans ?_
  obtain ⟨e00, e01, e10, e11, e20, e21, e30, e31, e32, e40, e41, e42, e50, e51, e52, e6b, e61⟩ := idx_facts0 t
  -- the feature rows of the block are rows (block index) · 4096 + r of the array
  have hx : (fun k : Fin 512 => iblk0 (V1 m ρ) c 0 t (ix2 r k))
      = fun k => m ((c : Thread nD τ).loc main_arg0) (ix2 ((((cfg0.win 6).blk t).view.emb (ix2 r 0)) 0) k) := by
    funext k
    show V1 m ρ c main_arg0 (((cfg0.win 0).blk t).view.emb (ix2 r k)) = _
    rw [V1_arg0]
    refine congrArg _ (funext fun a => Fin.ext ?_)
    match a with
    | ⟨0, _⟩ => show win0_0.index t (0 : Fin 2) * 4096 + 1 * r.val = win0_6.index t (0 : Fin 2) * 4096 + 1 * r.val; omega
    | ⟨1, _⟩ => show win0_0.index t (1 : Fin 2) * 512 + 1 * k.val = k.val; omega
  -- the scale and shift rows are the scale and shift vectors
  have hrow : ∀ k : Fin 512, ((cfg0.win 1).blk t).view.emb (ix2 (0 : Fin 1) k) = ix2 (0 : Fin 1) k := fun k =>
    funext fun a => Fin.ext (by
      match a with
      | ⟨0, _⟩ => show win0_1.index t (0 : Fin 2) * 1 + 1 * 0 = 0; omega
      | ⟨1, _⟩ => show win0_1.index t (1 : Fin 2) * 512 + 1 * k.val = k.val; omega)
  have hrow' : ∀ k : Fin 512, ((cfg0.win 2).blk t).view.emb (ix2 (0 : Fin 1) k) = ix2 (0 : Fin 1) k := fun k =>
    funext fun a => Fin.ext (by
      match a with
      | ⟨0, _⟩ => show win0_2.index t (0 : Fin 2) * 1 + 1 * 0 = 0; omega
      | ⟨1, _⟩ => show win0_2.index t (1 : Fin 2) * 512 + 1 * k.val = k.val; omega)
  have hg : (fun k : Fin 512 => iblk0 (V1 m ρ) c 1 t (ix2 0 k)) = fun k => m ((c : Thread nD τ).loc main_arg3) (ix1 k) := by
    funext k
    show V1 m ρ c main_v0 (((cfg0.win 1).blk t).view.emb (ix2 (0 : Fin 1) k)) = _
    rw [V1_v0, hrow k]
    exact shapeCast_a_1a_apply _ _ 0 k
  have hb : (fun k : Fin 512 => iblk0 (V1 m ρ) c 2 t (ix2 0 k)) = fun k => m ((c : Thread nD τ).loc main_arg4) (ix1 k) := by
    funext k
    show V1 m ρ c main_v1 (((cfg0.win 2).blk t).view.emb (ix2 (0 : Fin 1) k)) = _
    rw [V1_v1, hrow' k]
    exact shapeCast_a_1a_apply _ _ 0 k
  -- the weight blocks are the species' matrices: rows (block index) · 4096 + r lie in species (block index / 4)
  have hW1 : (fun (k : Fin 512) (j : Fin 256) => iblk0 (V1 m ρ) c 3 t (ix3 0 k j))
      = fun k j => m ((c : Thread nD τ).loc main_arg7)
          (ix3 (Cert.Energy.species ((((cfg0.win 6).blk t).view.emb (ix2 r 0)) 0)) k j) := by
    funext k j
    show V1 m ρ c main_arg7 (((cfg0.win 3).blk t).view.emb (ix3 (0 : Fin 1) k j)) = _
    rw [V1_arg7]
    refine congrArg _ (funext fun a => Fin.ext ?_)
    match a with
    | ⟨0, _⟩ => show win0_3.index t (0 : Fin 3) * 1 + 1 * 0 = (win0_6.index t (0 : Fin 2) * 4096 + 1 * r.val) / 16384; omega
    | ⟨1, _⟩ => show win0_3.index t (1 : Fin 3) * 512 + 1 * k.val = k.val; omega
    | ⟨2, _⟩ => show win0_3.index t (2 : Fin 3) * 256 + 1 * j.val = j.val; omega
  have hW2 : (fun (j : Fin 256) (h : Fin 256) => iblk0 (V1 m ρ) c 4 t (ix3 0 j h))
      = fun j h => m ((c : Thread nD τ).loc main_arg8)
          (ix3 (Cert.Energy.species ((((cfg0.win 6).blk t).view.emb (ix2 r 0)) 0)) j h) := by
    funext j h
    show V1 m ρ c main_arg8 (((cfg0.win 4).blk t).view.emb (ix3 (0 : Fin 1) j h)) = _
    rw [V1_arg8]
    refine congrArg _ (funext fun a => Fin.ext ?_)
    match a with
    | ⟨0, _⟩ => show win0_4.index t (0 : Fin 3) * 1 + 1 * 0 = (win0_6.index t (0 : Fin 2) * 4096 + 1 * r.val) / 16384; omega
    | ⟨1, _⟩ => show win0_4.index t (1 : Fin 3) * 256 + 1 * j.val = j.val; omega
    | ⟨2, _⟩ => show win0_4.index t (2 : Fin 3) * 256 + 1 * h.val = h.val; omega
  have hW3 : (fun (h : Fin 256) => iblk0 (V1 m ρ) c 5 t (ix3 0 h 0))
      = fun h => m ((c : Thread nD τ).loc main_arg9)
          (ix3 (Cert.Energy.species ((((cfg0.win 6).blk t).view.emb (ix2 r 0)) 0)) h 0) := by
    funext h
    show V1 m ρ c main_arg9 (((cfg0.win 5).blk t).view.emb (ix3 (0 : Fin 1) h (0 : Fin 1))) = _
    rw [V1_arg9]
    refine congrArg _ (funext fun a => Fin.ext ?_)
    match a with
    | ⟨0, _⟩ => show win0_5.index t (0 : Fin 3) * 1 + 1 * 0 = (win0_6.index t (0 : Fin 2) * 4096 + 1 * r.val) / 16384; omega
    | ⟨1, _⟩ => show win0_5.index t (1 : Fin 3) * 256 + 1 * h.val = h.val; omega
    | ⟨2, _⟩ => show win0_5.index t (2 : Fin 3) * 1 + 1 * 0 = 0; omega
  rw [hx, hg, hb, hW1, hW2, hW3]
  rfl

/-! ## The blocks tile the column -/

/-- An index of the column is in point t's block iff each coordinate is in the block's range on its axis. -/
theorem mem_blk_ps (t : Fin cfg0.N) (i : S65536x1.Idx) :
    i ∈ ((cfg0.win 6).blk t).view.set ↔ ∀ a : Fin 2, win0_6.index t a * S4096x1.size a ≤ (i a).val
      ∧ (i a).val < win0_6.index t a * S4096x1.size a + S4096x1.size a := by
  show i ∈ ((View.whole main_v4).slice (win0_6.rect t)).set ↔ _
  rw [View.set_slice_whole, Rect.mem_set_unit]
  exact Iff.rfl

/-- Row n of the column is in the block of the point whose block index is n / 4096. -/
theorem cover_ps (i : S65536x1.Idx) :
    ∃ t : Fin cfg0.N, (cfg0.win 6).flush t = true ∧ i ∈ ((cfg0.win 6).blk t).view.set := by
  have hi0 : (i 0).val < 65536 := (i 0).isLt
  have hi1 : (i 1).val < 1 := (i 1).isLt
  obtain ⟨t, ht⟩ := idx_onto0 ⟨(i 0).val / 4096, by omega⟩
  have q0 : win0_6.index t (0 : Fin 2) = (i 0).val / 4096 := congrFun ht 0
  have q1 : win0_6.index t (1 : Fin 2) = 0 := congrFun ht 1
  refine ⟨t, flush0_6 t, ?_⟩
  rw [mem_blk_ps]
  intro a
  match a with
  | ⟨0, _⟩ =>
    show win0_6.index t (0 : Fin 2) * 4096 ≤ (i 0).val ∧ (i 0).val < win0_6.index t (0 : Fin 2) * 4096 + 4096
    omega
  | ⟨1, _⟩ =>
    show win0_6.index t (1 : Fin 2) * 1 ≤ (i 1).val ∧ (i 1).val < win0_6.index t (1 : Fin 2) * 1 + 1
    omega

/-- THE ENERGY COLUMN after region 0: entry (n, 0) is atom n's energy in the 512-feature branch. -/
theorem final_ps (c : Dev nD) : (dat0 (V1 m ρ) c).arrAt 6 cfg0.N = Eps m c :=
  (dat0 (V1 m ρ) c).arrAt_eq_of_cover 6 (Eps m c) (fun t _ => flushed_ps m ρ c t) (cover_ps)

end Cert.KernelValue

end
-- ==== Proof.PayMp.lean ====
/-
  What one grid point of the 256-feature kernel leaves in its output block: row r of the block is the per-atom
  energy of row r of the feature block, with the one species' weights the point was given.

  The block's payload is read one entry at a time. A sum along a row of the 4096 × 256 feature block at row r is the
  sum over the 256 columns, and, reshaped to a column and divided by the count, it is the row's mean. Entry (r, j) of
  a product with a weight matrix is the sum over the contracted index k of the left factor at (r, k) times the right
  factor at (k, j); here all three products contract over 256 indices, the first two with square 256 × 256 weight
  matrices and the last with a 256 × 1 column. Between them stand the entrywise steps: centring a row by its mean,
  scaling by the inverse root of the mean squared deviation plus ε, the row-wise scale γ and shift β, and the
  activation y ↦ y · logistic y. Narrowing an entry to sixteen bits changes nothing over the extended reals, and a
  weight block given with a leading axis of length one is read at index 0 of that axis.
-/
import proofs.«422344_j78073915506942_3_alg».proof.Proof.Gen.KernelIdeal.Frame
import proofs.«422344_j78073915506942_3_alg».proof.Proof.Energy
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelEnergy

open Idealize.ShloMosaic Idealize.ShloMosaic.ValueIdx Cert.KernelIdeal Cert.KernelIdeal.Gen

namespace Mp

/-! ## Columns: a vector of length a seen as an a × 1 matrix, and such a column repeated along the rows -/

section Columns
variable {α : Type}

/-- A vector of length a reshaped to an a × 1 column reads, at (p, u), the vector's entry p: the one column index u
    is 0, so both sit at row-major position p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An a × 1 column repeated over b columns reads, at (p, c), the column's entry in row p, whatever c. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## Row sums, row means and the normalised entry of a 4096 × 256 block -/

/-- The sum of a 4096 × 256 block along its rows, at row r, is the sum of that row's 256 entries. -/
theorem rowSum_apply (v : FVec Ideal S4096x256 .f32) (h : S4096x256.Reduces [1] S4096) (hφ : FKind.Formats .f32)
    (hacc : (0x00000000#32 : BitVec 32) = 0x00000000#32) (r : Fin 4096) :
    multiReduction (F := Ideal) .add [1] S4096 v 0x00000000#32 h hφ hacc (ix1 r) = ∑ k : Fin 256, v (ix2 r k) := by
  refine (Ideal.multiReduction_add_single v 0x00000000#32 h hφ hacc (ix1 r)).trans ?_
  refine Finset.sum_congr rfl fun k _ => congrArg v ?_
  funext a
  match a with
  | ⟨0, _⟩ => rfl
  | ⟨1, _⟩ => rfl

/-- The activation at an entry: y · logistic y of that entry. -/
theorem silu_apply {s : Shape} (v : FVec Ideal s .f32) (i : s.Idx) : mulf v (logistic v) i = Energy.silu (v i) := rfl

/-- The inverse square root at an entry is the inverse square root of that entry. -/
theorem rsqrt_apply {s : Shape} {φ : FTy} (a : FVec Ideal s φ) (i : s.Idx) : rsqrt a i = Ideal.rsqrt (a i) := rfl

/-- The column of row means: the row sums, as a column, divided by the count n (the float word w), read in row r, is
    the mean of row r. -/
theorem meanCol_apply (v : FVec Ideal S4096x256 .f32) (h1 : S4096x256.Reduces [1] S4096) (hφ : FKind.Formats .f32)
    (hacc : (0x00000000#32 : BitVec 32) = 0x00000000#32) (h2 : S4096.ShapeCasts S4096x1)
    (w : BitVec 32) (r : Fin 4096) (u : Fin 1) :
    divf (shapeCast S4096x1 (multiReduction (F := Ideal) .add [1] S4096 v 0x00000000#32 h1 hφ hacc) h2)
        (broadcast S4096x1 (FloatOps.ofBits (F := Ideal) .f32 w)) (ix2 r u)
      = Energy.mean (Ideal.ofBits .f32 w) (fun k : Fin 256 => v (ix2 r k)) := by
  rw [divf_apply, broadcast_apply, shapeCast_a_a1_apply, rowSum_apply]
  rfl

/-- A block minus a column repeated along the rows: entry (r, k) is the block's entry minus the column's entry in
    row r. -/
theorem centred_apply (x : FVec Ideal S4096x256 .f32) (m : FVec Ideal S4096x1 .f32) (hb : S4096x1.Broadcasts S4096x256)
    (r : Fin 4096) (k : Fin 256) :
    subf x (broadcastTo S4096x256 m hb) (ix2 r k) = x (ix2 r k) - m (ix2 r (0 : Fin 1)) := by
  rw [subf_apply, broadcastTo_a1_ab_apply]

/-- The column of scales: with d = x − m the block centred by a column m, the mean over each row of d · d, plus ε
    (the float word e), under the inverse square root; read in row r it is the inverse root of that row's mean squared
    deviation plus ε. -/
theorem scaleCol_apply (x : FVec Ideal S4096x256 .f32) (m : FVec Ideal S4096x1 .f32) (hb : S4096x1.Broadcasts S4096x256)
    (h1 : S4096x256.Reduces [1] S4096) (hφ : FKind.Formats .f32)
    (hacc : (0x00000000#32 : BitVec 32) = 0x00000000#32) (h2 : S4096.ShapeCasts S4096x1)
    (w e : BitVec 32) (r : Fin 4096) (u : Fin 1) :
    rsqrt (addf (divf (shapeCast S4096x1 (multiReduction (F := Ideal) .add [1] S4096
            (mulf (subf x (broadcastTo S4096x256 m hb)) (subf x (broadcastTo S4096x256 m hb))) 0x00000000#32 h1 hφ hacc) h2)
          (broadcast S4096x1 (FloatOps.ofBits (F := Ideal) .f32 w)))
        (broadcast S4096x1 (FloatOps.ofBits (F := Ideal) .f32 e))) (ix2 r u)
      = Ideal.rsqrt (Ideal.div (∑ l : Fin 256, (x (ix2 r l) - m (ix2 r (0 : Fin 1))) * (x (ix2 r l) - m (ix2 r (0 : Fin 1))))
          (Ideal.ofBits .f32 w) + Ideal.ofBits .f32 e) := by
  rw [rsqrt_apply, addf_apply, broadcast_apply, meanCol_apply]
  refine congrArg (fun y => Ideal.rsqrt (Ideal.div y (Ideal.ofBits .f32 w) + Ideal.ofBits .f32 e))
    (Finset.sum_congr rfl fun l _ => ?_)
  beta_reduce
  rw [mulf_apply, centred_apply]

/-- The normalising arithmetic at entry (r, k): the block centred by the column m, times the column s, times the row γ,
    plus the row β, each column read in row r and each row at column k. -/
theorem affine_apply (x : FVec Ideal S4096x256 .f32) (m s : FVec Ideal S4096x1 .f32) (g b : Vec Ideal S1x256 .f32)
    (hb1 : S4096x1.Broadcasts S4096x256) (hb2 : S1x256.Broadcasts S4096x256) (hs : S1x256.ShapeCasts S1x256)
    (r : Fin 4096) (k : Fin 256) :
    addf (mulf (mulf (subf x (broadcastTo S4096x256 m hb1)) (broadcastTo S4096x256 s hb1))
        (broadcastTo S4096x256 (shapeCast S1x256 g hs) hb2)) (broadcastTo S4096x256 (shapeCast S1x256 b hs) hb2) (ix2 r k)
      = (x (ix2 r k) - m (ix2 r (0 : Fin 1))) * s (ix2 r (0 : Fin 1)) * g (ix2 (0 : Fin 1) k) + b (ix2 (0 : Fin 1) k) := by
  rw [addf_apply, mulf_apply, mulf_apply, centred_apply, broadcastTo_a1_ab_apply, shapeCast_self, shapeCast_self,
    broadcastTo_1b_ab_apply, broadcastTo_1b_ab_apply]

/-! ## The square products: 4096 × 256 times 256 × 256, contracting the first 256 (the first and the second layer) -/

/-- The left factor's row index is the result's row index, -/
theorem lhsSq_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide),
    dif_pos (show (0 : Fin S4096x256.rank) ∈ dot_S4096x256_S256x256_S4096x256_1_0_0_1_n_n.lhsNonContracting by decide)]
  rfl
/-- its column index the contracted index; -/
theorem lhsSq_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
/-- the right factor's row index is the contracted index, -/
theorem rhsSq_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
/-- its column index the result's column index. -/
theorem rhsSq_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide),
    dif_pos (show (1 : Fin S256x256.rank) ∈ dot_S4096x256_S256x256_S4096x256_1_0_0_1_n_n.rhsNonContracting by decide)]
  rfl

/-- Entry (r, h) of a square product, accumulated from zero: the sum over j of the left factor at (r, j) times the
    right factor at (j, h). -/
theorem matmulSq_apply (lhs : FVec Ideal S4096x256 .bf16) (rhs : FVec Ideal S256x256 .bf16) (r : Fin 4096) (h : Fin 256) :
    matmul dot_S4096x256_S256x256_S4096x256_1_0_0_1_n_n none lhs rhs (constant (F := Ideal) S4096x256 .f32 0x00000000#32) (ix2 r h)
      = ∑ j : Fin 256, lhs (ix2 r j) * rhs (ix2 j h) := by
  simp only [matmul]
  rw [Ideal.matmul_constant_zero_apply,
    ← Equiv.sum_comp (contrEquiv1 dot_S4096x256_S256x256_S4096x256_1_0_0_1_n_n 256 rfl rfl).symm]
  refine Finset.sum_congr rfl fun j _ => ?_
  have hj := contrEquiv1_symm_val dot_S4096x256_S256x256_S4096x256_1_0_0_1_n_n 256 rfl rfl j
  have el : dot_S4096x256_S256x256_S4096x256_1_0_0_1_n_n.lhsIdx (ix2 r h)
      ((contrEquiv1 dot_S4096x256_S256x256_S4096x256_1_0_0_1_n_n 256 rfl rfl).symm j) = ix2 r j :=
    funext fun a => Fin.ext (by
      match a with
      | ⟨0, _⟩ => exact lhsSq_0 _ _
      | ⟨1, _⟩ => exact (lhsSq_1 _ _).trans hj)
  have er : dot_S4096x256_S256x256_S4096x256_1_0_0_1_n_n.rhsIdx (ix2 r h)
      ((contrEquiv1 dot_S4096x256_S256x256_S4096x256_1_0_0_1_n_n 256 rfl rfl).symm j) = ix2 j h :=
    funext fun a => Fin.ext (by
      match a with
      | ⟨0, _⟩ => exact (rhsSq_0 _ _).trans hj
      | ⟨1, _⟩ => exact rhsSq_1 _ _)
  rw [el, er]

/-! ## The last product: 4096 × 256 times 256 × 1, contracting the 256 -/

/-- The left factor's row index is the result's row index, -/
theorem lhsCol_0 (i : S4096x1.Idx) (q : dot_S4096x256_S256x1_S4096x1_1_0_0_1_n_n.contr.Idx) :
    (dot_S4096x256_S256x1_S4096x1_1_0_0_1_n_n.lhsIdx i q 0).val = (i 0).val := by
  unfold DotDims.lhsIdx
  rw [dif_neg (show ¬(0 : Fin S4096x256.rank) ∈ dot_S4096x256_S256x1_S4096x1_1_0_0_1_n_n.lhsBatch by decide),
    dif_pos (show (0 : Fin S4096x256.rank) ∈ dot_S4096x256_S256x1_S4096x1_1_0_0_1_n_n.lhsNonContracting by decide)]
  rfl
/-- its column index the contracted index; -/
theorem lhsCol_1 (i : S4096x1.Idx) (q : dot_S4096x256_S256x1_S4096x1_1_0_0_1_n_n.contr.Idx) :
    (dot_S4096x256_S256x1_S4096x1_1_0_0_1_n_n.lhsIdx i q 1).val = (q ⟨0, by decide⟩).val :=
  dot_S4096x256_S256x1_S4096x1_1_0_0_1_n_n.lhsIdx_val_of_single rfl i q
/-- the right factor's row index is the contracted index, -/
theorem rhsCol_0 (i : S4096x1.Idx) (q : dot_S4096x256_S256x1_S4096x1_1_0_0_1_n_n.contr.Idx) :
    (dot_S4096x256_S256x1_S4096x1_1_0_0_1_n_n.rhsIdx i q 0).val = (q ⟨0, by decide⟩).val :=
  dot_S4096x256_S256x1_S4096x1_1_0_0_1_n_n.rhsIdx_val_of_single rfl i q
/-- its column index the result's column index. -/
theorem rhsCol_1 (i : S4096x1.Idx) (q : dot_S4096x256_S256x1_S4096x1_1_0_0_1_n_n.contr.Idx) :
    (dot_S4096x256_S256x1_S4096x1_1_0_0_1_n_n.rhsIdx i q 1).val = (i 1).val := by
  unfold DotDims.rhsIdx
  rw [dif_neg (show ¬(1 : Fin S256x1.rank) ∈ dot_S4096x256_S256x1_S4096x1_1_0_0_1_n_n.rhsBatch by decide),
    dif_pos (show (1 : Fin S256x1.rank) ∈ dot_S4096x256_S256x1_S4096x1_1_0_0_1_n_n.rhsNonContracting by decide)]
  rfl

/-- Entry (r, u) of the last product, accumulated from zero: the sum over h of the left factor at (r, h) times the right
    factor at (h, u). -/
theorem matmulCol_apply (lhs : FVec Ideal S4096x256 .f32) (rhs : FVec Ideal S256x1 .f32) (r : Fin 4096) (u : Fin 1) :
    matmul dot_S4096x256_S256x1_S4096x1_1_0_0_1_n_n none lhs rhs (constant (F := Ideal) S4096x1 .f32 0x00000000#32) (ix2 r u)
      = ∑ h : Fin 256, lhs (ix2 r h) * rhs (ix2 h u) := by
  simp only [matmul]
  rw [Ideal.matmul_constant_zero_apply,
    ← Equiv.sum_comp (contrEquiv1 dot_S4096x256_S256x1_S4096x1_1_0_0_1_n_n 256 rfl rfl).symm]
  refine Finset.sum_congr rfl fun h _ => ?_
  have hh := contrEquiv1_symm_val dot_S4096x256_S256x1_S4096x1_1_0_0_1_n_n 256 rfl rfl h
  have el : dot_S4096x256_S256x1_S4096x1_1_0_0_1_n_n.lhsIdx (ix2 r u)
      ((contrEquiv1 dot_S4096x256_S256x1_S4096x1_1_0_0_1_n_n 256 rfl rfl).symm h) = ix2 r h :=
    funext fun a => Fin.ext (by
      match a with
      | ⟨0, _⟩ => exact lhsCol_0 _ _
      | ⟨1, _⟩ => exact (lhsCol_1 _ _).trans hh)
  have er : dot_S4096x256_S256x1_S4096x1_1_0_0_1_n_n.rhsIdx (ix2 r u)
      ((contrEquiv1 dot_S4096x256_S256x1_S4096x1_1_0_0_1_n_n 256 rfl rfl).symm h) = ix2 h u :=
    funext fun a => Fin.ext (by
      match a with
      | ⟨0, _⟩ => exact (rhsCol_0 _ _).trans hh
      | ⟨1, _⟩ => exact rhsCol_1 _ _)
  rw [el, er]

/-! ## The two payloads at an entry -/

/-- The hidden layer at (r, h): the normalised row r through the first weight matrix, the activation, and the second
    weight matrix, the weights read at index 0 of their leading axis. -/
theorem pay2_apply (x0 : Vec Ideal S4096x256 .f32) (x1 x2 : Vec Ideal S1x256 .f32) (x3 : Vec Ideal S1x256x256 .f32)
    (x4 : Vec Ideal S1x256x256 .f32) (r : Fin 4096) (h : Fin 256) :
    k1_pay2 (F := Ideal) x0 x1 x2 x3 x4 (ix2 r h)
      = ∑ j : Fin 256, Energy.silu (∑ k : Fin 256,
          Energy.layerNorm (Ideal.ofBits .f32 0x43800000#32) (Ideal.ofBits .f32 0x3727C5AC#32)
            (fun k => x0 (ix2 r k)) (fun k => x1 (ix2 0 k)) (fun k => x2 (ix2 0 k)) k * x3 (ix3 0 k j)) * x4 (ix3 0 j h) := by
  unfold k1_pay2
  rw [matmulSq_apply]
  refine Finset.sum_congr rfl fun j _ => ?_
  rw [truncf_apply, truncf_apply, shapeCast_1ab_ab_apply, silu_apply, matmulSq_apply]
  refine congrArg (fun y => Energy.silu y * x4 (ix3 0 j h)) ?_
  refine Finset.sum_congr rfl fun k _ => ?_
  rw [truncf_apply, truncf_apply, shapeCast_1ab_ab_apply, affine_apply, scaleCol_apply, meanCol_apply]
  rfl

/-- The last layer at (r, u): the activation of the hidden layer's row r against the third weight matrix. -/
theorem pay1_apply (v38 : FVec Ideal S4096x256 .f32) (x5 : Vec Ideal S1x256x1 .f32) (r : Fin 4096) (u : Fin 1) :
    k1_pay1 (F := Ideal) v38 x5 (ix2 r u) = ∑ h : Fin 256, Energy.silu (v38 (ix2 r h)) * x5 (ix3 0 h u) := by
  unfold k1_pay1
  rw [matmulCol_apply]
  refine Finset.sum_congr rfl fun h _ => ?_
  rw [silu_apply, shapeCast_1ab_ab_apply]

end Mp

/-- Row r of the output block is the energy of row r of the feature block under the given scale, shift and weights:
    every block is read whole, the one store covers the output block, and the two payloads compose to the energy. -/
theorem out_mp (x0 : Vec Ideal S4096x256 .f32) (x1 x2 : Vec Ideal S1x256 .f32) (x3 : Vec Ideal S1x256x256 .f32)
    (x4 : Vec Ideal S1x256x256 .f32) (x5 : Vec Ideal S1x256x1 .f32) (r : Fin 4096) :
    out1_6 (F := Ideal) x0 x1 x2 x3 x4 x5 (ix2 r 0)
      = Energy.energy (ι := Fin 256) (κ := Fin 256) (Ideal.ofBits .f32 0x43800000#32) (Ideal.ofBits .f32 0x3727C5AC#32)
          (fun k => x0 (ix2 r k)) (fun k => x1 (ix2 0 k)) (fun k => x2 (ix2 0 k))
          (fun k j => x3 (ix3 0 k j)) (fun j h => x4 (ix3 0 j h)) (fun h => x5 (ix3 0 h 0)) := by
  have hz2 : (![0, 0] : Fin 2 → Nat) = fun _ => 0 := by
    funext a; match a with | ⟨0, _⟩ => rfl | ⟨1, _⟩ => rfl
  have hz3 : (![0, 0, 0] : Fin 3 → Nat) = fun _ => 0 := by
    funext a; match a with | ⟨0, _⟩ => rfl | ⟨1, _⟩ => rfl | ⟨2, _⟩ => rfl
  unfold out1_6
  rw [View.canon_unit_zero hz2]
  simp only [View.ld_unit_zero (S := S4096x256) hz2, View.ld_unit_zero (S := S1x256) hz2,
    View.ld_unit_zero (S := S1x256x256) hz3, View.ld_unit_zero (S := S1x256x1) hz3]
  rw [Mp.pay1_apply]
  unfold Energy.energy
  refine Finset.sum_congr rfl fun h _ => ?_
  rw [Mp.pay2_apply]

end Cert.KernelEnergy

end
-- ==== Proof.KernelMp.lean ====
import proofs.«422344_j78073915506942_3_alg».proof.Proof.RunValue
import proofs.«422344_j78073915506942_3_alg».proof.Proof.PayMp
import proofs.«422344_j78073915506942_3_alg».proof.Proof.Energy
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384
noncomputable section
open scoped BigOperators
namespace Cert.KernelValue
open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-! # The 256-feature region: its output array after the run

Region 1 runs over the same 4 × 4 grid as region 0, on the 256-feature array and its own scale, shift and weights:
point (s, u) is given rows (4 s + u) · 4096 … + 4095 and species s's matrices and writes the same rows of its own
energy column. It is entered from the contents region 0 leaves, which differ from the launch contents only in region
0's own arrays, none of which region 1 reads. -/

/-! ## The arrays as the region finds them -/

theorem V2_arg1 (c : Dev nD) : V2 m ρ c main_arg1 = m ((c : Thread nD τ).loc main_arg1) :=
  (W2_of_ne m ρ c main_arg1 (by decide)).trans (by
    show StableHlo.after hostOps0 (W0 m ρ c) (Proc.devRef .tc main_arg1) = _
    after_results_simp <;> rfl)
theorem V2_arg10 (c : Dev nD) : V2 m ρ c main_arg10 = m ((c : Thread nD τ).loc main_arg10) :=
  (W2_of_ne m ρ c main_arg10 (by decide)).trans (by
    show StableHlo.after hostOps0 (W0 m ρ c) (Proc.devRef .tc main_arg10) = _
    after_results_simp <;> rfl)
theorem V2_arg11 (c : Dev nD) : V2 m ρ c main_arg11 = m ((c : Thread nD τ).loc main_arg11) :=
  (W2_of_ne m ρ c main_arg11 (by decide)).trans (by
    show StableHlo.after hostOps0 (W0 m ρ c) (Proc.devRef .tc main_arg11) = _
    after_results_simp <;> rfl)
theorem V2_arg12 (c : Dev nD) : V2 m ρ c main_arg12 = m ((c : Thread nD τ).loc main_arg12) :=
  (W2_of_ne m ρ c main_arg12 (by decide)).trans (by
    show StableHlo.after hostOps0 (W0 m ρ c) (Proc.devRef .tc main_arg12) = _
    after_results_simp <;> rfl)
/-- The scale row is the scale vector viewed as one row. -/
theorem V2_v2 (c : Dev nD) : V2 m ρ c main_v2 = shapeCast S1x256 (m ((c : Thread nD τ).loc main_arg5)) shapeCasts_S256_S1x256 :=
  (W2_of_ne m ρ c main_v2 (by decide)).trans (by
    show StableHlo.after hostOps0 (W0 m ρ c) (Proc.devRef .tc main_v2) = _
    after_results
    rfl)
/-- The shift row likewise. -/
theorem V2_v3 (c : Dev nD) : V2 m ρ c main_v3 = shapeCast S1x256 (m ((c : Thread nD τ).loc main_arg6)) shapeCasts_S256_S1x256 :=
  (W2_of_ne m ρ c main_v3 (by decide)).trans (by
    show StableHlo.after hostOps0 (W0 m ρ c) (Proc.devRef .tc main_v3) = _
    after_results
    rfl)

/-! ## The energy column of the 256-feature branch, as one function of the launch arrays -/

/-- Entry (n, 0): the per-atom energy of feature row n under the weights of atom n's species. -/
def Emp (c : Dev nD) : S65536x1.Idx → EReal := fun i =>
  Cert.Energy.energy (ι := Fin 256) (κ := Fin 256) (Ideal.ofBits .f32 0x43800000#32) (Ideal.ofBits .f32 0x3727C5AC#32)
    (fun k => m ((c : Thread nD τ).loc main_arg1) (ix2 (i 0) k))
    (fun k => m ((c : Thread nD τ).loc main_arg5) (ix1 k))
    (fun k => m ((c : Thread nD τ).loc main_arg6) (ix1 k))
    (fun k j => m ((c : Thread nD τ).loc main_arg10) (ix3 (Cert.Energy.species (i 0)) k j))
    (fun j h => m ((c : Thread nD τ).loc main_arg11) (ix3 (Cert.Energy.species (i 0)) j h))
    (fun h => m ((c : Thread nD τ).loc main_arg12) (ix3 (Cert.Energy.species (i 0)) h 0))

/-! ## The index maps, decided over the 16 grid points -/

/-- The feature block moves with the output block; the scale and shift rows stay; the weight blocks are species
    (output block index / 4); the output block index runs over 0 … 15. -/
theorem idx_facts1 : ∀ t : Fin cfg1.N,
    win1_0.index t (0 : Fin 2) = win1_6.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = win1_6.index t (0 : Fin 2) / 4 ∧ win1_3.index t (1 : Fin 3) = 0 ∧ win1_3.index t (2 : Fin 3) = 0
    ∧ win1_4.index t (0 : Fin 3) = win1_6.index t (0 : Fin 2) / 4 ∧ win1_4.index t (1 : Fin 3) = 0 ∧ win1_4.index t (2 : Fin 3) = 0
    ∧ win1_5.index t (0 : Fin 3) = win1_6.index t (0 : Fin 2) / 4 ∧ win1_5.index t (1 : Fin 3) = 0 ∧ win1_5.index t (2 : Fin 3) = 0
    ∧ win1_6.index t (0 : Fin 2) ≤ 15 ∧ win1_6.index t (1 : Fin 2) = 0 :=
  (by decide +kernel : ∀ t : Fin grid1.N, _)

/-- Every block of the column is some point's. -/
theorem idx_onto1 : ∀ q : Fin 16, ∃ t : Fin cfg1.N, win1_6.index t = ![q.val, 0] :=
  (by decide +kernel : ∀ q : Fin 16, ∃ t : Fin grid1.N, win1_6.index t = ![q.val, 0])

/-! ## What a point writes back -/

theorem flushed_mp (c : Dev nD) (t : Fin cfg1.N) :
    (dat1 (V2 m ρ) c).flushed 6 t = ((cfg1.win 6).blk t).view.read (Elt Ideal) (Emp m c) := by
  show (cfg1.win 6).cut (grid1.coords t) ((dat1 (V2 m ρ) c).after 6 t) = _
  rw [after1_6]
  funext y
  obtain ⟨r, q, rfl⟩ : ∃ (r : Fin 4096) (q : Fin 1), y = ix2 r q := ⟨y 0, y 1, eq_ix2 y⟩
  obtain rfl : q = 0 := Subsingleton.elim _ _
  show out1_6 (iblk1 (V2 m ρ) c 0 t) (iblk1 (V2 m ρ) c 1 t) (iblk1 (V2 m ρ) c 2 t) (iblk1 (V2 m ρ) c 3 t)
      (iblk1 (V2 m ρ) c 4 t) (iblk1 (V2 m ρ) c 5 t) (ix2 r 0) = Emp m c (((cfg1.win 6).blk t).view.emb (ix2 r 0))
  refine (Cert.KernelEnergy.out_mp (iblk1 (V2 m ρ) c 0 t) (iblk1 (V2 m ρ) c 1 t) (iblk1 (V2 m ρ) c 2 t)
    (iblk1 (V2 m ρ) c 3 t) (iblk1 (V2 m ρ) c 4 t) (iblk1 (V2 m ρ) c 5 t) r).trans ?_
  obtain ⟨e00, e01, e10, e11, e20, e21, e30, e31, e32, e40, e41, e42, e50, e51, e52, e6b, e61⟩ := idx_facts1 t
  -- the feature rows of the block are rows (block index) · 4096 + r of the array
  have hx : (fun k : Fin 256 => iblk1 (V2 m ρ) c 0 t (ix2 r k))
      = fun k => m ((c : Thread nD τ).loc main_arg1) (ix2 ((((cfg1.win 6).blk t).view.emb (ix2 r 0)) 0) k) := by
    funext k
    show V2 m ρ c main_arg1 (((cfg1.win 0).blk t).view.emb (ix2 r k)) = _
    rw [V2_arg1]
    refine congrArg _ (funext fun a => Fin.ext ?_)
    match a with
    | ⟨0, _⟩ => show win1_0.index t (0 : Fin 2) * 4096 + 1 * r.val = win1_6.index t (0 : Fin 2) * 4096 + 1 * r.val; omega
    | ⟨1, _⟩ => show win1_0.index t (1 : Fin 2) * 256 + 1 * k.val = k.val; omega
  -- the scale and shift rows are the scale and shift vectors
  have hrow : ∀ k : Fin 256, ((cfg1.win 1).blk t).view.emb (ix2 (0 : Fin 1) k) = ix2 (0 : Fin 1) k := fun k =>
    funext fun a => Fin.ext (by
      match a with
      | ⟨0, _⟩ => show win1_1.index t (0 : Fin 2) * 1 + 1 * 0 = 0; omega
      | ⟨1, _⟩ => show win1_1.index t (1 : Fin 2) * 256 + 1 * k.val = k.val; omega)
  have hrow' : ∀ k : Fin 256, ((cfg1.win 2).blk t).view.emb (ix2 (0 : Fin 1) k) = ix2 (0 : Fin 1) k := fun k =>
    funext fun a => Fin.ext (by
      match a with
      | ⟨0, _⟩ => show win1_2.index t (0 : Fin 2) * 1 + 1 * 0 = 0; omega
      | ⟨1, _⟩ => show win1_2.index t (1 : Fin 2) * 256 + 1 * k.val = k.val; omega)
  have hg : (fun k : Fin 256 => iblk1 (V2 m ρ) c 1 t (ix2 0 k)) = fun k => m ((c : Thread nD τ).loc main_arg5) (ix1 k) := by
    funext k
    show V2 m ρ c main_v2 (((cfg1.win 1).blk t).view.emb (ix2 (0 : Fin 1) k)) = _
    rw [V2_v2, hrow k]
    exact shapeCast_a_1a_apply _ _ 0 k
  have hb : (fun k : Fin 256 => iblk1 (V2 m ρ) c 2 t (ix2 0 k)) = fun k => m ((c : Thread nD τ).loc main_arg6) (ix1 k) := by
    funext k
    show V2 m ρ c main_v3 (((cfg1.win 2).blk t).view.emb (ix2 (0 : Fin 1) k)) = _
    rw [V2_v3, hrow' k]
    exact shapeCast_a_1a_apply _ _ 0 k
  -- the weight blocks are the species' matrices: rows (block index) · 4096 + r lie in species (block index / 4)
  have hW1 : (fun (k : Fin 256) (j : Fin 256) => iblk1 (V2 m ρ) c 3 t (ix3 0 k j))
      = fun k j => m ((c : Thread nD τ).loc main_arg10)
          (ix3 (Cert.Energy.species ((((cfg1.win 6).blk t).view.emb (ix2 r 0)) 0)) k j) := by
    funext k j
    show V2 m ρ c main_arg10 (((cfg1.win 3).blk t).view.emb (ix3 (0 : Fin 1) k j)) = _
    rw [V2_arg10]
    refine congrArg _ (funext fun a => Fin.ext ?_)
    match a with
    | ⟨0, _⟩ => show win1_3.index t (0 : Fin 3) * 1 + 1 * 0 = (win1_6.index t (0 : Fin 2) * 4096 + 1 * r.val) / 16384; omega
    | ⟨1, _⟩ => show win1_3.index t (1 : Fin 3) * 256 + 1 * k.val = k.val; omega
    | ⟨2, _⟩ => show win1_3.index t (2 : Fin 3) * 256 + 1 * j.val = j.val; omega
  have hW2 : (fun (j : Fin 256) (h : Fin 256) => iblk1 (V2 m ρ) c 4 t (ix3 0 j h))
      = fun j h => m ((c : Thread nD τ).loc main_arg11)
          (ix3 (Cert.Energy.species ((((cfg1.win 6).blk t).view.emb (ix2 r 0)) 0)) j h) := by
    funext j h
    show V2 m ρ c main_arg11 (((cfg1.win 4).blk t).view.emb (ix3 (0 : Fin 1) j h)) = _
    rw [V2_arg11]
    refine congrArg _ (funext fun a => Fin.ext ?_)
    match a with
    | ⟨0, _⟩ => show win1_4.index t (0 : Fin 3) * 1 + 1 * 0 = (win1_6.index t (0 : Fin 2) * 4096 + 1 * r.val) / 16384; omega
    | ⟨1, _⟩ => show win1_4.index t (1 : Fin 3) * 256 + 1 * j.val = j.val; omega
    | ⟨2, _⟩ => show win1_4.index t (2 : Fin 3) * 256 + 1 * h.val = h.val; omega
  have hW3 : (fun (h : Fin 256) => iblk1 (V2 m ρ) c 5 t (ix3 0 h 0))
      = fun h => m ((c : Thread nD τ).loc main_arg12)
          (ix3 (Cert.Energy.species ((((cfg1.win 6).blk t).view.emb (ix2 r 0)) 0)) h 0) := by
    funext h
    show V2 m ρ c main_arg12 (((cfg1.win 5).blk t).view.emb (ix3 (0 : Fin 1) h (0 : Fin 1))) = _
    rw [V2_arg12]
    refine congrArg _ (funext fun a => Fin.ext ?_)
    match a with
    | ⟨0, _⟩ => show win1_5.index t (0 : Fin 3) * 1 + 1 * 0 = (win1_6.index t (0 : Fin 2) * 4096 + 1 * r.val) / 16384; omega
    | ⟨1, _⟩ => show win1_5.index t (1 : Fin 3) * 256 + 1 * h.val = h.val; omega
    | ⟨2, _⟩ => show win1_5.index t (2 : Fin 3) * 1 + 1 * 0 = 0; omega
  rw [hx, hg, hb, hW1, hW2, hW3]
  rfl

/-! ## The blocks tile the column -/

/-- An index of the column is in point t's block iff each coordinate is in the block's range on its axis. -/
theorem mem_blk_mp (t : Fin cfg1.N) (i : S65536x1.Idx) :
    i ∈ ((cfg1.win 6).blk t).view.set ↔ ∀ a : Fin 2, win1_6.index t a * S4096x1.size a ≤ (i a).val
      ∧ (i a).val < win1_6.index t a * S4096x1.size a + S4096x1.size a := by
  show i ∈ ((View.whole main_v5).slice (win1_6.rect t)).set ↔ _
  rw [View.set_slice_whole, Rect.mem_set_unit]
  exact Iff.rfl

/-- Row n of the column is in the block of the point whose block index is n / 4096. -/
theorem cover_mp (i : S65536x1.Idx) :
    ∃ t : Fin cfg1.N, (cfg1.win 6).flush t = true ∧ i ∈ ((cfg1.win 6).blk t).view.set := by
  have hi0 : (i 0).val < 65536 := (i 0).isLt
  have hi1 : (i 1).val < 1 := (i 1).isLt
  obtain ⟨t, ht⟩ := idx_onto1 ⟨(i 0).val / 4096, by omega⟩
  have q0 : win1_6.index t (0 : Fin 2) = (i 0).val / 4096 := congrFun ht 0
  have q1 : win1_6.index t (1 : Fin 2) = 0 := congrFun ht 1
  refine ⟨t, flush1_6 t, ?_⟩
  rw [mem_blk_mp]
  intro a
  match a with
  | ⟨0, _⟩ =>
    show win1_6.index t (0 : Fin 2) * 4096 ≤ (i 0).val ∧ (i 0).val < win1_6.index t (0 : Fin 2) * 4096 + 4096
    omega
  | ⟨1, _⟩ =>
    show win1_6.index t (1 : Fin 2) * 1 ≤ (i 1).val ∧ (i 1).val < win1_6.index t (1 : Fin 2) * 1 + 1
    omega

/-- THE ENERGY COLUMN after region 1: entry (n, 0) is atom n's energy in the 256-feature branch. -/
theorem final_mp (c : Dev nD) : (dat1 (V2 m ρ) c).arrAt 6 cfg1.N = Emp m c :=
  (dat1 (V2 m ρ) c).arrAt_eq_of_cover 6 (Emp m c) (fun t _ => flushed_mp m ρ c t) (cover_mp)

end Cert.KernelValue

end
-- ==== Proof.LibScatterCount.lean ====
/-
  An integer scatter-add of scalar updates into a rank-1 array, read at one index as a sum over natural numbers.

  The scatter is a left fold over the update positions: each update is added to the result element its start index
  names, and dropped when that index lies outside the array. Reading the fold at ONE index k, only the updates whose
  start index is k matter, so the element is the operand's element plus the word sum of those updates
  (scatter_apply_fold, for any dimension numbers and any body). For an operand [M], scatter indices [N, 1] and
  updates [N] with the one operand axis inserted, update n lands at the signed value of idx[n, 0] when that lies in
  [0, M) (resultIdx?_eq_some_iff). When the operand's element and all updates together stay below 2 ^ w, no word
  addition wraps, and the word sum is the sum of the natural numbers (scatter_add_toNat).
-/
import Idealize.ShloMosaic.PureOps.ShapeOps
import Idealize.ShloMosaic.Lib.ValueIdx
import Mathlib.Algebra.BigOperators.Fin

noncomputable section

open scoped BigOperators

namespace Cert.LibScatterCount

open Idealize.ShloMosaic Idealize.ShloMosaic.ValueIdx

/-! ## The fold read at one index -/

/-- A scatter read at the index k: the fold, over the update positions in row-major order, that applies the body
    to the running element and the update exactly when the update lands at k. -/
theorem scatter_apply_fold {α : Type} {s si u : Shape} {w : Nat} (d : ScatterDims s si u) (f : α → α → α)
    (x : s.Idx → α) (idx : IVec si w) (upd : u.Idx → α) (k : s.Idx) :
    Host.scatter d f x idx upd k
      = (List.finRange u.numel).foldl (fun a n =>
          if d.resultIdx? (u.rowMajor.symm n) idx = some k then f a (upd (u.rowMajor.symm n)) else a) (x k) := by
  unfold Host.scatter
  generalize List.finRange u.numel = l
  induction l generalizing x with
  | nil => rfl
  | cons n l ih =>
    rw [List.foldl_cons, List.foldl_cons, ih]
    congr 1
    cases hg : d.resultIdx? (u.rowMajor.symm n) idx with
    | none => simp
    | some i =>
      by_cases hki : k = i
      · subst hki; simp
      · have hne : ¬ (some i = some k) := fun h => hki (Option.some.inj h).symm
        simp [hki, hne]

/-! ## Conditional word additions along a list, as natural numbers -/

/-- Adding to a word, along a list, the words v n of the positions that satisfy c: when the word and ALL the v n
    together stay below 2 ^ w nothing wraps, and the result is the word plus the sum of the selected v n. -/
theorem foldl_cond_addi_toNat {ι : Type} {w : Nat} (c : ι → Prop) [DecidablePred c] (v : ι → BitVec w) (l : List ι)
    (a : BitVec w) (hb : a.toNat + (l.map fun n => (v n).toNat).sum < 2 ^ w) :
    (l.foldl (fun a n => if c n then IntOp.addi a (v n) else a) a).toNat
      = a.toNat + (l.map fun n => if c n then (v n).toNat else 0).sum := by
  induction l generalizing a with
  | nil => simp
  | cons n l ih =>
    simp only [List.foldl_cons, List.map_cons, List.sum_cons] at hb ⊢
    by_cases hc : c n
    · have hadd : (IntOp.addi a (v n)).toNat = a.toNat + (v n).toNat := by
        show (a + v n).toNat = _
        rw [BitVec.toNat_add]; exact Nat.mod_eq_of_lt (by omega)
      rw [if_pos hc, if_pos hc, ih _ (by rw [hadd]; omega), hadd]; omega
    · rw [if_neg hc, if_neg hc, ih _ (by omega)]; omega

/-! ## A rank-1 index set, by its coordinate -/

/-- A rank-1 index is its one coordinate. -/
def idxEquiv1 {n : Nat} : (⟨1, ![n]⟩ : Shape).Idx ≃ Fin n where
  toFun i := i 0
  invFun a := ix1 a
  left_inv i := (eq_ix1 i).symm
  right_inv _ := rfl

/-- A sum along the row-major positions of a rank-1 shape is the sum over the coordinate. -/
theorem sum_finRange_rowMajor {N : Nat} (F : (⟨1, ![N]⟩ : Shape).Idx → ℕ) :
    ((List.finRange (⟨1, ![N]⟩ : Shape).numel).map fun n => F ((⟨1, ![N]⟩ : Shape).rowMajor.symm n)).sum
      = ∑ n : Fin N, F (ix1 n) := by
  rw [← Fin.sum_univ_def, Equiv.sum_comp (⟨1, ![N]⟩ : Shape).rowMajor.symm F,
    ← Equiv.sum_comp (idxEquiv1 (n := N)).symm F]
  rfl

/-! ## Where an update lands: operand [M], scatter indices [N, 1], updates [N], the operand's axis inserted -/

section Landing
variable {M N : Nat} (d : ScatterDims ⟨1, ![M]⟩ ⟨2, ![N, 1]⟩ ⟨1, ![N]⟩)

/-- The operand's one axis is inserted, so no update has a window coordinate on it. -/
theorem window_eq (h2 : d.insertedWindowDims = [0]) (j : (⟨1, ![N]⟩ : Shape).Idx) (a : Fin 1) : d.window j a = 0 := by
  obtain rfl : a = 0 := Subsingleton.elim _ _
  unfold ScatterDims.window
  rw [dif_neg]
  intro ha
  have hm := (List.mem_filter.1 ha).2
  rw [h2] at hm
  simp at hm

/-- The start of update j on the operand's axis is the scatter index idx[j, 0], read signed. -/
theorem start_eq (h1 : d.updateWindowDims = []) (h3 : d.scatterDimsToOperandDims = [0]) (h4 : d.indexVectorDim = 1)
    {w : Nat} (idx : IVec ⟨2, ![N, 1]⟩ w) (j : (⟨1, ![N]⟩ : Shape).Idx) (a : Fin 1) :
    d.start j idx a = (idx (ix2 (j 0) 0)).toInt := by
  obtain rfl : a = 0 := Subsingleton.elim _ _
  obtain ⟨uw, iw, sd, iv, wf⟩ := d
  simp only at h1 h3 h4
  subst h1 h3 h4
  unfold ScatterDims.start
  rw [dif_pos (List.mem_singleton.mpr rfl)]
  congr 2
  funext b
  refine Fin.ext ?_
  match b with
  | ⟨0, _⟩ => rfl
  | ⟨1, _⟩ => rfl

/-- Update j lands at k exactly when its scatter index, read signed, is k (an index outside [0, M) lands nowhere). -/
theorem resultIdx?_eq_some_iff (h1 : d.updateWindowDims = []) (h2 : d.insertedWindowDims = [0])
    (h3 : d.scatterDimsToOperandDims = [0]) (h4 : d.indexVectorDim = 1)
    {w : Nat} (idx : IVec ⟨2, ![N, 1]⟩ w) (j : (⟨1, ![N]⟩ : Shape).Idx) (k : Fin M) :
    d.resultIdx? j idx = some (ix1 k) ↔ (idx (ix2 (j 0) 0)).toInt = (k.val : ℤ) := by
  have hs := start_eq d h1 h3 h4 idx j
  have hw := window_eq d h2 j
  unfold ScatterDims.resultIdx?
  split_ifs with h
  · rw [Option.some.injEq]
    constructor
    · intro he
      have h0 := h 0
      have hv : (d.start j idx 0 + (d.window j 0 : ℤ)).toNat = k.val := congrArg Fin.val (congrFun he 0)
      rw [hs 0, hw 0] at hv h0
      omega
    · intro he
      funext a
      obtain rfl : a = 0 := Subsingleton.elim _ _
      refine Fin.ext ?_
      show (d.start j idx 0 + (d.window j 0 : ℤ)).toNat = k.val
      rw [hs 0, hw 0, he]
      simp
  · constructor
    · intro he; cases he
    · intro he
      exfalso
      apply h
      intro a
      obtain rfl : a = 0 := Subsingleton.elim _ _
      rw [hs 0, hw 0, he]
      have hk : ((k.val : ℕ) : ℤ) < ((M : ℕ) : ℤ) := by exact_mod_cast k.isLt
      exact ⟨by simp, by simpa using hk⟩

end Landing

/-! ## The scatter-add read at an index, as natural numbers -/

/-- THE SCATTER-ADD AT k, any word widths: when the operand's element at k and all N updates together stay below
    2 ^ w, the result's element at k is the operand's plus the sum of the updates whose scatter index, read signed,
    is k. -/
theorem scatter_add_toNat_gen {M N w wi : Nat} (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : (⟨1, ![M]⟩ : Shape).Idx → BitVec w) (idx : (⟨2, ![N, 1]⟩ : Shape).Idx → BitVec wi)
    (upd : (⟨1, ![N]⟩ : Shape).Idx → BitVec w) (k : Fin M)
    (hb : (x (ix1 k)).toNat + (∑ n : Fin N, (upd (ix1 n)).toNat) < 2 ^ w) :
    (Host.scatter d IntOp.addi x idx upd (ix1 k)).toNat
      = (x (ix1 k)).toNat + ∑ n : Fin N, if (idx (ix2 n 0)).toInt = (k.val : ℤ) then (upd (ix1 n)).toNat else 0 := by
  rw [scatter_apply_fold]
  have hb' : (x (ix1 k)).toNat
      + ((List.finRange (⟨1, ![N]⟩ : Shape).numel).map fun n =>
          (upd ((⟨1, ![N]⟩ : Shape).rowMajor.symm n)).toNat).sum < 2 ^ w := by
    rw [sum_finRange_rowMajor (fun j => (upd j).toNat)]; exact hb
  rw [foldl_cond_addi_toNat
    (fun n => d.resultIdx? ((⟨1, ![N]⟩ : Shape).rowMajor.symm n) idx = some (ix1 k))
    (fun n => upd ((⟨1, ![N]⟩ : Shape).rowMajor.symm n)) _ _ hb']
  congr 1
  rw [sum_finRange_rowMajor (fun j => if d.resultIdx? j idx = some (ix1 k) then (upd j).toNat else 0)]
  refine Finset.sum_congr rfl fun n _ => ?_
  exact if_congr (resultIdx?_eq_some_iff d h1 h2 h3 h4 idx (ix1 n) k) rfl rfl

/-- THE SCATTER-ADD AT k, 32-bit words. -/
theorem scatter_add_toNat {M N : ℕ} (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : (⟨1, ![M]⟩ : Shape).Idx → BitVec 32) (idx : (⟨2, ![N, 1]⟩ : Shape).Idx → BitVec 32)
    (upd : (⟨1, ![N]⟩ : Shape).Idx → BitVec 32) (k : Fin M)
    (hb : (x (ix1 k)).toNat + (∑ n : Fin N, (upd (ix1 n)).toNat) < 2 ^ 32) :
    (Host.scatter d IntOp.addi x idx upd (ix1 k)).toNat
      = (x (ix1 k)).toNat + ∑ n : Fin N, if (idx (ix2 n 0)).toInt = (k.val : ℤ) then (upd (ix1 n)).toNat else 0 :=
  scatter_add_toNat_gen d h1 h2 h3 h4 x idx upd k hb

end Cert.LibScatterCount

end
-- ==== Proof.LibScatterColumn.lean ====
/-
  A float scatter-add of a column of updates, read at one index over the extended reals.

  Where an update lands, for any dimension numbers: update j lands at the operand index i exactly when, on every
  operand axis, its start index plus its window coordinate is i's coordinate (lands_iff_coords); and a window
  coordinate is always below the operand's extent on its axis (window_lt_size), so on an axis of extent one it is 0.

  The column form: operand [M, 1], scatter indices [N, 1], updates [N, 1]. Update row n carries one signed integer
  idx[n, 0], the operand ROW it is added to; the operand's second axis, of extent one, is the update's window axis.
  A row outside [0, M) is dropped. So the result at (k, 0) is the operand's element plus the sum over all n of the
  update (n, 0) where idx[n, 0] = k, and of zero elsewhere (hostScatterAdd_column_apply). The rank-1 form (operand
  [M], updates [N], no window axis) reads the same way (hostScatterAdd_rank1_apply), so the two forms of one
  segment sum are one sum over n.
-/
import Idealize.ShloMosaic.PureOps.Ideal
import Idealize.ShloMosaic.Lib.ValueIdx
import Mathlib.Algebra.BigOperators.Fin
import proofs.«422344_j78073915506942_3_alg».proof.Proof.LibScatterCount

noncomputable section

open scoped BigOperators

namespace Cert.LibScatterColumn

open Idealize.ShloMosaic Idealize.ShloMosaic.ValueIdx

/-! ## Where an update lands, for any dimension numbers -/

/-- Update j lands at i exactly when start plus window coordinate is i's coordinate on every operand axis. -/
theorem lands_iff_coords {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  split_ifs with h
  · rw [Option.some.injEq]
    constructor
    · intro he a
      have hv : (d.start j idx a + (d.window j a : ℤ)).toNat = (i a).val := congrArg Fin.val (congrFun he a)
      have h0 := (h a).1
      omega
    · intro he
      funext a
      refine Fin.ext ?_
      show (d.start j idx a + (d.window j a : ℤ)).toNat = (i a).val
      rw [he a]
      simp
  · constructor
    · intro he; cases he
    · intro he
      refine absurd (fun a => ?_) h
      rw [he a]
      exact ⟨by simp, by exact_mod_cast (i a).isLt⟩

/-- A window coordinate lies below the operand's extent on its axis: the update's window axis is no longer than the
    operand axis it goes to. -/
theorem window_lt_size {s si u : Shape} (d : ScatterDims s si u) (j : u.Idx) (a : Fin s.rank) (ha : a ∈ d.sKept) :
    d.window j a < s.size a := by
  unfold ScatterDims.window
  rw [dif_pos ha]
  have hp : d.sKept.idxOf a < d.sKept.length := List.idxOf_lt_length_iff.2 ha
  have h1 := d.window_size ⟨d.sKept.idxOf a, by rw [d.window_length]; exact hp⟩
  simp only [Fin.getElem_fin, Fin.cast_mk, List.getElem_idxOf hp] at h1
  exact lt_of_lt_of_le (Fin.isLt _) h1

/-! ## The column form: operand [M, 1], scatter indices [N, 1], updates [N, 1] -/

section Column
variable {M N : Nat} (d : ScatterDims ⟨2, ![M, 1]⟩ ⟨2, ![N, 1]⟩ ⟨2, ![N, 1]⟩)

/-- No update has a window coordinate other than 0: the row axis is inserted, the other axis has extent one. -/
theorem window_eq (h2 : d.insertedWindowDims = [0]) (j : (⟨2, ![N, 1]⟩ : Shape).Idx) (a : Fin 2) :
    d.window j a = 0 := by
  match a with
  | ⟨0, _⟩ =>
    unfold ScatterDims.window
    rw [dif_neg]
    intro ha
    have hm := (List.mem_filter.1 ha).2
    rw [h2] at hm
    simp at hm
  | ⟨1, h⟩ =>
    have hmem : (⟨1, h⟩ : Fin (⟨2, ![M, 1]⟩ : Shape).rank) ∈ d.sKept :=
      List.mem_filter.2 ⟨List.mem_finRange _, by rw [h2]; simp⟩
    have hlt := window_lt_size d j ⟨1, h⟩ hmem
    have hs : (⟨2, ![M, 1]⟩ : Shape).size ⟨1, h⟩ = 1 := rfl
    omega

/-- The start of update j: on the row axis the scatter index idx[j 0, 0] read signed, on the other axis 0. -/
theorem start_eq (h1 : d.updateWindowDims = [1]) (h3 : d.scatterDimsToOperandDims = [0]) (h4 : d.indexVectorDim = 1)
    {w : Nat} (idx : IVec ⟨2, ![N, 1]⟩ w) (j : (⟨2, ![N, 1]⟩ : Shape).Idx) :
    d.start j idx 0 = (idx (ix2 (j 0) 0)).toInt ∧ d.start j idx 1 = 0 := by
  obtain ⟨uw, iw, sd, iv, wf⟩ := d
  simp only at h1 h3 h4
  subst h1 h3 h4
  constructor
  · unfold ScatterDims.start
    rw [dif_pos (List.mem_singleton.mpr rfl)]
    congr 2
    funext b
    refine Fin.ext ?_
    match b with
    | ⟨0, _⟩ => rfl
    | ⟨1, _⟩ => rfl
  · unfold ScatterDims.start
    rw [dif_neg]
    intro hm
    simp at hm

/-- Update j lands at (k, 0) exactly when its scatter index, read signed, is k. -/
theorem lands_iff (h1 : d.updateWindowDims = [1]) (h2 : d.insertedWindowDims = [0])
    (h3 : d.scatterDimsToOperandDims = [0]) (h4 : d.indexVectorDim = 1)
    {w : Nat} (idx : IVec ⟨2, ![N, 1]⟩ w) (j : (⟨2, ![N, 1]⟩ : Shape).Idx) (k : Fin M) :
    d.resultIdx? j idx = some (ix2 k 0) ↔ (idx (ix2 (j 0) 0)).toInt = (k.val : ℤ) := by
  rw [lands_iff_coords]
  obtain ⟨hs0, hs1⟩ := start_eq d h1 h3 h4 idx j
  have hw := window_eq d h2 j
  constructor
  · intro h
    have h0 : d.start j idx 0 + (d.window j 0 : ℤ) = (k.val : ℤ) := h 0
    rw [hs0, hw 0] at h0
    simpa using h0
  · intro he a
    match a with
    | ⟨0, _⟩ =>
      show d.start j idx 0 + (d.window j 0 : ℤ) = (k.val : ℤ)
      rw [hs0, hw 0, he]; simp
    | ⟨1, _⟩ =>
      show d.start j idx 1 + (d.window j 1 : ℤ) = (((0 : Fin 1)).val : ℤ)
      rw [hs1, hw 1]; simp

/-- THE COLUMN SCATTER-ADD AT (k, 0): the operand's element plus the sum over all update rows n of the update where
    its scatter index is k, zero elsewhere. -/
theorem hostScatterAdd_column_apply (h1 : d.updateWindowDims = [1]) (h2 : d.insertedWindowDims = [0])
    (h3 : d.scatterDimsToOperandDims = [0]) (h4 : d.indexVectorDim = 1)
    {w : Nat} (x : (⟨2, ![M, 1]⟩ : Shape).Idx → EReal) (idx : IVec ⟨2, ![N, 1]⟩ w)
    (upd : (⟨2, ![N, 1]⟩ : Shape).Idx → EReal) (k : Fin M) :
    Ideal.hostScatterAdd d x idx upd (ix2 k 0)
      = x (ix2 k 0) + ∑ n : Fin N, if (idx (ix2 n 0)).toInt = (k.val : ℤ) then upd (ix2 n 0) else 0 := by
  unfold Ideal.hostScatterAdd
  rw [Finset.sum_filter, sum_idx2]
  congr 1
  refine Finset.sum_congr rfl fun n _ => ?_
  rw [Fin.sum_univ_one]
  exact if_congr (lands_iff d h1 h2 h3 h4 idx (ix2 n 0) k) rfl rfl

end Column

/-! ## The rank-1 form: operand [M], scatter indices [N, 1], updates [N] -/

/-- THE RANK-1 SCATTER-ADD AT k: the operand's element plus the sum over all n of the update where its scatter index
    is k, zero elsewhere. -/
theorem hostScatterAdd_rank1_apply {M N : Nat} (d : ScatterDims ⟨1, ![M]⟩ ⟨2, ![N, 1]⟩ ⟨1, ![N]⟩)
    (h1 : d.updateWindowDims = []) (h2 : d.insertedWindowDims = [0])
    (h3 : d.scatterDimsToOperandDims = [0]) (h4 : d.indexVectorDim = 1)
    {w : Nat} (x : (⟨1, ![M]⟩ : Shape).Idx → EReal) (idx : IVec ⟨2, ![N, 1]⟩ w)
    (upd : (⟨1, ![N]⟩ : Shape).Idx → EReal) (k : Fin M) :
    Ideal.hostScatterAdd d x idx upd (ix1 k)
      = x (ix1 k) + ∑ n : Fin N, if (idx (ix2 n 0)).toInt = (k.val : ℤ) then upd (ix1 n) else 0 := by
  unfold Ideal.hostScatterAdd
  rw [Finset.sum_filter, ← Equiv.sum_comp (Cert.LibScatterCount.idxEquiv1 (n := N)).symm]
  congr 1
  refine Finset.sum_congr rfl fun n _ => ?_
  exact if_congr (Cert.LibScatterCount.resultIdx?_eq_some_iff d h1 h2 h3 h4 idx (ix1 n) k) rfl rfl

end Cert.LibScatterColumn

end
-- ==== Proof.KernelTail.lean ====
import proofs.«422344_j78073915506942_3_alg».proof.Proof.KernelPs
import proofs.«422344_j78073915506942_3_alg».proof.Proof.KernelMp
import proofs.«422344_j78073915506942_3_alg».proof.Proof.LibScatterColumn
import Idealize.ShloMosaic.Lib.ValueIdx
import Idealize.ShloMosaic.Lib.Pipeline.Value
import Idealize.ShloMosaic.Lib.StableHlo.Run
import Idealize.ShloMosaic.PureOps.Ideal.Laws

set_option maxRecDepth 16384
noncomputable section
open scoped BigOperators
namespace Cert.KernelValue
open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-! # The kernel's result: molecule k's energy as a sum over atoms

After the two regions the last host stretch adds the two energy columns atom by atom, views the sum as a vector,
and scatter-adds it into a zero vector of 512 molecules by the molecule index of each atom; the result is viewed as
a column. -/

/-! ## The three buffers the last host stretch reads, as the second region leaves them -/

/-- The 512-feature branch's energy column: region 1 does not touch it. -/
theorem W3_v4 (c : Dev nD) : W3 m ρ c (Proc.devRef .tc main_v4) = Eps m c :=
  (W3_of_ne m ρ c main_v4 (by decide)).trans ((W2_arr m ρ c 6).trans (final_ps m ρ c))
/-- The 256-feature branch's energy column. -/
theorem W3_v5 (c : Dev nD) : W3 m ρ c (Proc.devRef .tc main_v5) = Emp m c :=
  (W3_arr m ρ c 6).trans (final_mp m ρ c)
/-- The molecule indices: no region and no host operation writes them. -/
theorem W3_arg2 (c : Dev nD) : W3 m ρ c (Proc.devRef .tc main_arg2) = m ((c : Thread nD τ).loc main_arg2) :=
  (W3_of_ne m ρ c main_arg2 (by decide)).trans ((W2_of_ne m ρ c main_arg2 (by decide)).trans (by
    show StableHlo.after hostOps0 (W0 m ρ c) (Proc.devRef .tc main_arg2) = _
    after_results_simp <;> rfl))

/-! ## The last host stretch as one term -/

theorem tail (c : Dev nD) :
    (W4 m ρ c (Proc.devRef .tc main_v11) : FVec Ideal S512x1 .f32)
      = shapeCast S512x1 (Host.scatterAdd (F := Ideal) scatter_S512_S65536x1_S65536_n_0_0_1
          (broadcastInDim S512 ![] bcast_S_S512 (constant (F := Ideal) S_ .f32 0x00000000#32))
          (broadcastInDim S65536x1 ![0] bcast_S65536_S65536x1_0
            (W3 m ρ c (Proc.devRef .tc main_arg2) : IVec S65536 32))
          (shapeCast S65536 (addf (W3 m ρ c (Proc.devRef .tc main_v4) : FVec Ideal S65536x1 .f32)
            (W3 m ρ c (Proc.devRef .tc main_v5) : FVec Ideal S65536x1 .f32))
            shapeCasts_S65536x1_S65536)) shapeCasts_S512_S512x1 := by
  show StableHlo.after hostOps2 (W3 m ρ c) (Proc.devRef .tc main_v11) = _
  after_results
  rfl

/-! ## Read at molecule k -/

/-- MOLECULE k's ENERGY: the zero word plus the sum, over the atoms n whose molecule index is k, of the two branches'
    energies of atom n added. -/
theorem result_apply (c : Dev nD) (k : Fin 512) :
    W4 m ρ c (Proc.devRef .tc main_v11) (ix2 k 0)
      = Ideal.ofBits .f32 0x00000000#32 + ∑ n : Fin 65536,
          if BitVec.toInt (m ((c : Thread nD τ).loc main_arg2) (ix1 n)) = (k.val : ℤ)
            then Eps m c (ix2 n 0) + Emp m c (ix2 n 0) else 0 := by
  rw [tail, W3_v4, W3_v5, W3_arg2]
  rw [shapeCast_apply _ _ (ix2 k 0) (ix1 k) (by
    rw [Shape.rowMajor_val_two, Shape.rowMajor_val_one]; show k.val = k.val * 1 + 0; omega)]
  show Ideal.hostScatterAdd scatter_S512_S65536x1_S65536_n_0_0_1 _ _ _ (ix1 k) = _
  rw [Cert.LibScatterColumn.hostScatterAdd_rank1_apply _ rfl rfl rfl rfl]
  refine congrArg₂ (· + ·) rfl (Finset.sum_congr rfl fun n _ => ?_)
  refine if_congr ?_ ?_ rfl
  · -- the index column at row n is atom n's molecule index
    rw [broadcastInDim_apply ![0] bcast_S65536_S65536x1_0 _ (ix2 n 0) (ix1 n) (fun a => match a with
      | ⟨0, _⟩ => by show n.val = if (65536 : Nat) = 1 then 0 else n.val; rw [if_neg (by decide)])]
  · -- the update at n is the sum of the two columns at (n, 0)
    rw [shapeCast_apply _ _ (ix1 n) (ix2 n 0) (by
      rw [Shape.rowMajor_val_two, Shape.rowMajor_val_one]; show n.val * 1 + 0 = n.val; omega)]
    rfl

end Cert.KernelValue

end
-- ==== Proof.Segment.lean ====
/-
  The last step on both sides is a segment sum: molecule k's energy is the sum of the energies of the atoms n whose
  molecule index is k. The kernel adds the two branches' energies atom by atom and sums once; the reference sums each
  branch, divides each sum by the normalisation factor 1, and adds the two. Over the extended reals a finite sum of
  a n + b n is the sum of the a n plus the sum of the b n (addition is commutative and associative there, infinities
  included), and dividing by 1 changes nothing, so the two are equal for every input.
-/
import Idealize.ShloMosaic.PureOps.Ideal

noncomputable section

open scoped BigOperators

namespace Cert.Segment

open Idealize.ShloMosaic

/-- Dividing an extended real by 1 leaves it as it is. -/
theorem div_one (x : EReal) : Ideal.div x 1 = x := by
  have h := Ideal.div_coe (y := 1) one_ne_zero x
  simpa using h

/-- One masked sum of a n + b n from 0 is the two masked sums from 0, each divided by 1, added. The start value z
    and the divisor are parameters known to be 0 and 1 (the float words of 0.0 and 1.0). -/
theorem masked_sum_split {N : Type} [Fintype N] (p : N → Prop) [DecidablePred p] (a b : N → EReal)
    (z one : EReal) (hz : z = 0) (h1 : one = 1) :
    z + ∑ n, (if p n then a n + b n else 0)
      = Ideal.div (z + ∑ n, if p n then a n else 0) one + Ideal.div (z + ∑ n, if p n then b n else 0) one := by
  subst hz h1
  rw [div_one, div_one, zero_add, zero_add, zero_add, ← Finset.sum_add_distrib]
  refine Finset.sum_congr rfl fun n _ => ?_
  split_ifs
  · rfl
  · rw [add_zero]

end Cert.Segment

end
-- ==== Proof.Bridge.lean ====
/-
  The two programs' results are one function of the arguments.

  Molecule k's energy, kernel side: the sum over the atoms n with molecule index k of (atom n's 512-feature energy +
  atom n's 256-feature energy). Reference side: the sum of the 512-feature energies of those atoms, divided by 1,
  plus the same for the 256-feature energies. Atom by atom the two sides' energies are the same number (each is the
  per-atom energy of the atom's feature row under its species' weights), and a finite sum of a n + b n over the
  extended reals is the sum of the a n plus the sum of the b n, so the results agree for every input.
-/
import proofs.«422344_j78073915506942_3_alg».proof.Proof.Gen.ReferenceIdeal.Read
import proofs.«422344_j78073915506942_3_alg».proof.Proof.RefPs
import proofs.«422344_j78073915506942_3_alg».proof.Proof.RefMp
import proofs.«422344_j78073915506942_3_alg».proof.Proof.KernelTail
import proofs.«422344_j78073915506942_3_alg».proof.Proof.Segment
import proofs.«422344_j78073915506942_3_alg».proof.Proof.LibScatterColumn
import Idealize.ShloMosaic.Lib.ValueIdx
import Idealize.ShloMosaic.PureOps.Ideal.Laws
import Idealize.ShloMosaic.PureOps.IdealRules

set_option maxRecDepth 16384

noncomputable section

open scoped BigOperators

namespace Cert.Bridge

open Idealize.ShloMosaic Idealize.ShloMosaic.TcCoe Idealize.ShloMosaic.ValueIdx Idealize.SL.Sem
open Cert.ReferenceIdeal.Read

/-! ## The reference's two segment sums, read at molecule k -/

/-- Row n of the reference's index column is atom n's molecule index. -/
theorem idx63 (n : Fin 65536) : idx_main_v63 (ix2 n (0 : Fin 1)) = ix1 n :=
  funext fun a => by match a with | ⟨0, _⟩ => rfl
theorem idx68 (n : Fin 65536) : idx_main_v68 (ix2 n (0 : Fin 1)) = ix1 n :=
  funext fun a => by match a with | ⟨0, _⟩ => rfl

/-- The 512-feature branch: the zero word plus the sum over the atoms with molecule index k of the atom's energy. -/
theorem seg_ps (x0 : (⟨Cert.ReferenceIdeal.S65536x512, .f32⟩ : BufTy).Contents (Elt Ideal))
    (x2 : (⟨Cert.ReferenceIdeal.S65536, .i32⟩ : BufTy).Contents (Elt Ideal))
    (x3 x4 : (⟨Cert.ReferenceIdeal.S512, .f32⟩ : BufTy).Contents (Elt Ideal))
    (x7 : (⟨Cert.ReferenceIdeal.S4x512x256, .f32⟩ : BufTy).Contents (Elt Ideal))
    (x8 : (⟨Cert.ReferenceIdeal.S4x256x256, .f32⟩ : BufTy).Contents (Elt Ideal))
    (x9 : (⟨Cert.ReferenceIdeal.S4x256x1, .f32⟩ : BufTy).Contents (Elt Ideal)) (k : Fin 512) :
    val_main_v64 (F := Ideal) x0 x2 x3 x4 x7 x8 x9 (ix2 k 0)
      = Ideal.ofBits .f32 0x00000000#32 + ∑ n : Fin 65536,
          if BitVec.toInt (x2 (ix1 n)) = (k.val : ℤ) then val_main_v54 (F := Ideal) x0 x3 x4 x7 x8 x9 (ix2 n 0) else 0 := by
  show Ideal.hostScatterAdd Cert.ReferenceIdeal.scatter_S512x1_S65536x1_S65536x1_1_0_0_1 (val_main_v62 (F := Ideal))
    (val_main_v63 (F := Ideal) x2) (val_main_v54 (F := Ideal) x0 x3 x4 x7 x8 x9) (ix2 k 0) = _
  rw [Cert.LibScatterColumn.hostScatterAdd_column_apply _ rfl rfl rfl rfl]
  refine congrArg₂ (· + ·) ?_ (Finset.sum_congr rfl fun n _ => if_congr ?_ rfl rfl)
  · rw [val_main_v62_apply]; rfl
  · rw [val_main_v63_apply, idx63]

/-- The 256-feature branch likewise. -/
theorem seg_mp (x1 : (⟨Cert.ReferenceIdeal.S65536x256, .f32⟩ : BufTy).Contents (Elt Ideal))
    (x2 : (⟨Cert.ReferenceIdeal.S65536, .i32⟩ : BufTy).Contents (Elt Ideal))
    (x5 x6 : (⟨Cert.ReferenceIdeal.S256, .f32⟩ : BufTy).Contents (Elt Ideal))
    (x10 x11 : (⟨Cert.ReferenceIdeal.S4x256x256, .f32⟩ : BufTy).Contents (Elt Ideal))
    (x12 : (⟨Cert.ReferenceIdeal.S4x256x1, .f32⟩ : BufTy).Contents (Elt Ideal)) (k : Fin 512) :
    val_main_v69 (F := Ideal) x1 x2 x5 x6 x10 x11 x12 (ix2 k 0)
      = Ideal.ofBits .f32 0x00000000#32 + ∑ n : Fin 65536,
          if BitVec.toInt (x2 (ix1 n)) = (k.val : ℤ) then val_main_v61 (F := Ideal) x1 x5 x6 x10 x11 x12 (ix2 n 0) else 0 := by
  show Ideal.hostScatterAdd Cert.ReferenceIdeal.scatter_S512x1_S65536x1_S65536x1_1_0_0_1 (val_main_v67 (F := Ideal))
    (val_main_v68 (F := Ideal) x2) (val_main_v61 (F := Ideal) x1 x5 x6 x10 x11 x12) (ix2 k 0) = _
  rw [Cert.LibScatterColumn.hostScatterAdd_column_apply _ rfl rfl rfl rfl]
  refine congrArg₂ (· + ·) ?_ (Finset.sum_congr rfl fun n _ => if_congr ?_ rfl rfl)
  · rw [val_main_v67_apply]; rfl
  · rw [val_main_v68_apply, idx68]

/-! ## The reference's result at molecule k -/

theorem ref_result_apply (x0 : (⟨Cert.ReferenceIdeal.S65536x512, .f32⟩ : BufTy).Contents (Elt Ideal))
    (x1 : (⟨Cert.ReferenceIdeal.S65536x256, .f32⟩ : BufTy).Contents (Elt Ideal))
    (x2 : (⟨Cert.ReferenceIdeal.S65536, .i32⟩ : BufTy).Contents (Elt Ideal))
    (x3 x4 : (⟨Cert.ReferenceIdeal.S512, .f32⟩ : BufTy).Contents (Elt Ideal))
    (x5 x6 : (⟨Cert.ReferenceIdeal.S256, .f32⟩ : BufTy).Contents (Elt Ideal))
    (x7 : (⟨Cert.ReferenceIdeal.S4x512x256, .f32⟩ : BufTy).Contents (Elt Ideal))
    (x8 : (⟨Cert.ReferenceIdeal.S4x256x256, .f32⟩ : BufTy).Contents (Elt Ideal))
    (x9 : (⟨Cert.ReferenceIdeal.S4x256x1, .f32⟩ : BufTy).Contents (Elt Ideal))
    (x10 x11 : (⟨Cert.ReferenceIdeal.S4x256x256, .f32⟩ : BufTy).Contents (Elt Ideal))
    (x12 : (⟨Cert.ReferenceIdeal.S4x256x1, .f32⟩ : BufTy).Contents (Elt Ideal)) (k : Fin 512) :
    val_main_v72 (F := Ideal) x0 x1 x2 x3 x4 x5 x6 x7 x8 x9 x10 x11 x12 (ix2 k 0)
      = Ideal.div (Ideal.ofBits .f32 0x00000000#32 + ∑ n : Fin 65536,
            if BitVec.toInt (x2 (ix1 n)) = (k.val : ℤ) then val_main_v54 (F := Ideal) x0 x3 x4 x7 x8 x9 (ix2 n 0) else 0)
          (Ideal.ofBits .f32 0x3F800000#32)
        + Ideal.div (Ideal.ofBits .f32 0x00000000#32 + ∑ n : Fin 65536,
            if BitVec.toInt (x2 (ix1 n)) = (k.val : ℤ) then val_main_v61 (F := Ideal) x1 x5 x6 x10 x11 x12 (ix2 n 0) else 0)
          (Ideal.ofBits .f32 0x3F800000#32) := by
  rw [val_main_v72_apply, val_main_v66_apply, val_main_v71_apply, seg_ps, seg_mp, val_main_v65_apply, val_main_v70_apply]
  rfl

/-! ## The results agree -/

/-- From memories that agree on the thirteen arguments, the reference's result term is the contents the kernel's
    last host stretch leaves in its result buffer. -/
theorem result_eq (m : (ℓ : Loc Cert.KernelIdeal.nD Cert.KernelIdeal.τ Cert.KernelIdeal.sig) → Buf (Elt Ideal) ℓ)
    (ρ : Dev Cert.KernelIdeal.nD → PrngReg)
    (x0 : (⟨Cert.ReferenceIdeal.S65536x512, .f32⟩ : BufTy).Contents (Elt Ideal))
    (x1 : (⟨Cert.ReferenceIdeal.S65536x256, .f32⟩ : BufTy).Contents (Elt Ideal))
    (x2 : (⟨Cert.ReferenceIdeal.S65536, .i32⟩ : BufTy).Contents (Elt Ideal))
    (x3 x4 : (⟨Cert.ReferenceIdeal.S512, .f32⟩ : BufTy).Contents (Elt Ideal))
    (x5 x6 : (⟨Cert.ReferenceIdeal.S256, .f32⟩ : BufTy).Contents (Elt Ideal))
    (x7 : (⟨Cert.ReferenceIdeal.S4x512x256, .f32⟩ : BufTy).Contents (Elt Ideal))
    (x8 : (⟨Cert.ReferenceIdeal.S4x256x256, .f32⟩ : BufTy).Contents (Elt Ideal))
    (x9 : (⟨Cert.ReferenceIdeal.S4x256x1, .f32⟩ : BufTy).Contents (Elt Ideal))
    (x10 x11 : (⟨Cert.ReferenceIdeal.S4x256x256, .f32⟩ : BufTy).Contents (Elt Ideal))
    (x12 : (⟨Cert.ReferenceIdeal.S4x256x1, .f32⟩ : BufTy).Contents (Elt Ideal))
    (c : Dev Cert.KernelIdeal.nD)
    (h0 : x0 = m ((c.tc : Thread Cert.KernelIdeal.nD Cert.KernelIdeal.τ).loc Cert.KernelIdeal.main_arg0))
    (h1 : x1 = m ((c.tc : Thread Cert.KernelIdeal.nD Cert.KernelIdeal.τ).loc Cert.KernelIdeal.main_arg1))
    (h2 : x2 = m ((c.tc : Thread Cert.KernelIdeal.nD Cert.KernelIdeal.τ).loc Cert.KernelIdeal.main_arg2))
    (h3 : x3 = m ((c.tc : Thread Cert.KernelIdeal.nD Cert.KernelIdeal.τ).loc Cert.KernelIdeal.main_arg3))
    (h4 : x4 = m ((c.tc : Thread Cert.KernelIdeal.nD Cert.KernelIdeal.τ).loc Cert.KernelIdeal.main_arg4))
    (h5 : x5 = m ((c.tc : Thread Cert.KernelIdeal.nD Cert.KernelIdeal.τ).loc Cert.KernelIdeal.main_arg5))
    (h6 : x6 = m ((c.tc : Thread Cert.KernelIdeal.nD Cert.KernelIdeal.τ).loc Cert.KernelIdeal.main_arg6))
    (h7 : x7 = m ((c.tc : Thread Cert.KernelIdeal.nD Cert.KernelIdeal.τ).loc Cert.KernelIdeal.main_arg7))
    (h8 : x8 = m ((c.tc : Thread Cert.KernelIdeal.nD Cert.KernelIdeal.τ).loc Cert.KernelIdeal.main_arg8))
    (h9 : x9 = m ((c.tc : Thread Cert.KernelIdeal.nD Cert.KernelIdeal.τ).loc Cert.KernelIdeal.main_arg9))
    (h10 : x10 = m ((c.tc : Thread Cert.KernelIdeal.nD Cert.KernelIdeal.τ).loc Cert.KernelIdeal.main_arg10))
    (h11 : x11 = m ((c.tc : Thread Cert.KernelIdeal.nD Cert.KernelIdeal.τ).loc Cert.KernelIdeal.main_arg11))
    (h12 : x12 = m ((c.tc : Thread Cert.KernelIdeal.nD Cert.KernelIdeal.τ).loc Cert.KernelIdeal.main_arg12)) :
    val_main_v72 (F := Ideal) x0 x1 x2 x3 x4 x5 x6 x7 x8 x9 x10 x11 x12
      = Cert.KernelIdeal.Gen.W4 m ρ c (Proc.devRef .tc Cert.KernelIdeal.main_v11) := by
  subst h0 h1 h2 h3 h4 h5 h6 h7 h8 h9 h10 h11 h12
  funext i
  obtain ⟨k, q, rfl⟩ : ∃ (k : Fin 512) (q : Fin 1), i = ix2 k q := ⟨i 0, i 1, eq_ix2 i⟩
  obtain rfl : q = 0 := Subsingleton.elim _ _
  -- atom by atom the kernel's energy columns hold the reference's per-atom energies
  have hps : ∀ n : Fin 65536, Cert.KernelValue.Eps m c (ix2 n 0)
      = val_main_v54 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
          (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (ix2 n 0) := by
    intro n
    rw [Cert.RefEnergy.ref_ps]
    rfl
  have hmp : ∀ n : Fin 65536, Cert.KernelValue.Emp m c (ix2 n 0)
      = val_main_v61 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
          (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (ix2 n 0) := by
    intro n
    rw [Cert.RefEnergy.ref_mp]
    rfl
  rw [ref_result_apply, Cert.KernelValue.result_apply]
  simp only [hps, hmp]
  exact (Cert.Segment.masked_sum_split _ _ _ _ _ Ideal.ofBits_zero_f32
    (IdealRules.sign_bit.ideal_onePat .f32)).symm

end Cert.Bridge

end
-- ==== Proof.lean ====
/-
  The kernel computes, for each of 65536 atoms in two feature branches (512 and 256 features), the energy of the
  atom: the feature row is normalised (mean and mean squared deviation over the row, an offset, a scale and a shift),
  then passed through three weight matrices of the atom's species with the activation y · logistic y after the first
  two. The atoms come as 4 species in contiguous runs of 16384; each of the two pallas_calls walks a 4 × 4 grid of
  blocks of 4096 atoms with the species' weights. The two energies of an atom are added and summed into the atom's
  molecule (512 molecules). The reference normalises whole arrays, views them as [4, 16384, ·] for three grouped
  matrix products with the activation spelt out as y · (1 / (1 + e^(-y))), sums each branch into the molecules,
  divides each sum by 1 and adds the two.

  Over the extended reals the two are one function of the arguments, for every input: atom by atom both sides compute
  the same per-atom energy (the same sums over the same index sets; a change of float format is the identity; the
  logistic function is its spelt-out form; the literals are the same words on both sides), a finite sum of
  a n + b n is the sum of the a n plus the sum of the b n, and dividing by 1 changes nothing. No step needs the
  inputs to be finite.

  The frames of the two kernel programs are the generated ones; the reference's is its generated run with the result
  dropped; the idealization rewrote nothing, so preserves is trivial.
-/
import proofs.«422344_j78073915506942_3_alg».proof.Defs
import proofs.«422344_j78073915506942_3_alg».proof.Proof.Gen.Kernel
import proofs.«422344_j78073915506942_3_alg».proof.Proof.Gen.Kernel.Skeleton
import proofs.«422344_j78073915506942_3_alg».proof.Proof.Gen.Kernel.Launch
import proofs.«422344_j78073915506942_3_alg».proof.Proof.Gen.Kernel.Points
import proofs.«422344_j78073915506942_3_alg».proof.Proof.Gen.Kernel.Frame
import proofs.«422344_j78073915506942_3_alg».proof.Proof.Gen.KernelIdeal
import proofs.«422344_j78073915506942_3_alg».proof.Proof.Gen.KernelIdeal.Skeleton
import proofs.«422344_j78073915506942_3_alg».proof.Proof.Gen.KernelIdeal.Launch
import proofs.«422344_j78073915506942_3_alg».proof.Proof.Gen.KernelIdeal.Points
import proofs.«422344_j78073915506942_3_alg».proof.Proof.Gen.KernelIdeal.Frame
import proofs.«422344_j78073915506942_3_alg».proof.Proof.Gen.ReferenceIdeal
import proofs.«422344_j78073915506942_3_alg».proof.Proof.Gen.Pre_finite_inputs
import proofs.«422344_j78073915506942_3_alg».proof.Proof.Gen.ReferenceIdeal.Run
import proofs.«422344_j78073915506942_3_alg».proof.Proof.Gen.ReferenceIdeal.Read
import proofs.«422344_j78073915506942_3_alg».proof.Proof.RunValue
import proofs.«422344_j78073915506942_3_alg».proof.Proof.Bridge
import Idealize.ShloMosaic.Adequacy
import Idealize.ShloMosaic.Init

noncomputable section

namespace Cert.Proof

open Idealize.ShloMosaic Idealize.ShloMosaic.TcCoe Idealize.SL.Sem

/-- Both idealized programs run, from memories agreeing on the arguments, to equal results: the kernel's run leaves
    in its result buffer the contents of its last host stretch, and the reference's result term is those contents. -/
theorem algebraic : Cert.algebraic_KernelIdeal_ReferenceIdeal := by
  intro m ρ m' ρ' _ hagree
  refine ⟨fun c => Cert.KernelIdeal.Gen.W4 m ρ c (Proc.devRef .tc Cert.KernelIdeal.main_v11),
    Cert.KernelIdeal.RunValue.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v72_eq]
  obtain ⟨h0, h1, h2, h3, h4, h5, h6, h7, h8, h9, h10, h11, h12⟩ := hagree c
  exact Cert.Bridge.result_eq m ρ _ _ _ _ _ _ _ _ _ _ _ _ _ c h0 h1 h2 h3 h4 h5 h6 h7 h8 h9 h10 h11 h12

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2)
    (Cert.ReferenceIdeal.Value.run (F := Ideal) m ρ),
  trivial,
  algebraic⟩

end Cert.Proof

end
